-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x32 : Shape := ⟨2, ![50000, 32]⟩
abbrev S2x800000 : Shape := ⟨2, ![2, 800000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part6 {F : FTy → Type} [FloatOps F] (main_arg23 : FVec F S8 .f32) (main_v98 : IVec S_ 1) (main_v101 : IVec S64x8 1) (main_c_39 : IVec S_ 1) : IVec S_ 1 :=
  let main_v102 : IVec S_ 1 := (fun x v => Host.reduce IntOp.andi x v reducesTo_S64x8_S_d0_1 h_S_) main_v101 main_c_39
  let main_v103 : IVec S_ 1 := andi main_v98 main_v102
  let main_v104 : FVec F S8 .f32 := Host.absf main_arg23
  let main_cst_40 : FVec F S_ .f32 := constant S_ .f32 0x7F800000#32
  let main_v105 : FVec F S8 .f32 := broadcastInDim S8 ![] bcast_S_S8 main_cst_40
  let main_v106 : IVec S8 1 := cmpf .olt main_v104 main_v105
  let main_c_41 : IVec S_ 1 := constantI S_ 1 1#1
  let main_v107 : IVec S_ 1 := (fun x v => Host.reduce IntOp.andi x v reducesTo_S8_S_d0 h_S_) main_v106 main_c_41
  let main_v108 : IVec S_ 1 := andi main_v103 main_v107
  main_v108

def fn_part5 {F : FTy → Type} [FloatOps F] (main_arg20 : FVec F S128x64 .f32) (main_arg21 : FVec F S64 .f32) (main_arg22 : FVec F S64x8 .f32) (main_arg23 : FVec F S8 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x8 .f32 := Host.absf main_arg22
  let main_cst_38 : FVec F S_ .f32 := constant S_ .f32 0x7F800000#32
  let main_v100 : FVec F S64x8 .f32 := broadcastInDim S64x8 ![] bcast_S_S64x8 main_cst_38
  let main_v101 : IVec S64x8 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128x128 .f32) (main_arg17 : FVec F S128x128 .f32) (main_arg18 : FVec F S128 .f32) (main_arg19 : FVec F S128x128 .f32) (main_arg20 : FVec F S128x64 .f32) (main_arg21 : FVec F S64 .f32) (main_arg22 : FVec F S64x8 .f32) (main_arg23 : FVec F S8 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x64 .f32) (main_arg21 : FVec F S64 .f32) (main_arg22 : FVec F S64x8 .f32) (main_arg23 : FVec F S8 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x64 .f32) (main_arg21 : FVec F S64 .f32) (main_arg22 : FVec F S64x8 .f32) (main_arg23 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S32x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x64 .f32) (main_arg21 : FVec F S64 .f32) (main_arg22 : FVec F S64x8 .f32) (main_arg23 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : FVec F S50000x32 .f32) (main_arg2 : IVec S2x800000 32) (main_arg3 : IVec S2x800000 32) (main_arg4 : FVec F S64x128 .f32) (main_arg5 : FVec F S128 .f32) (main_arg6 : FVec F S32x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x64 .f32) (main_arg21 : FVec F S64 .f32) (main_arg22 : FVec F S64x8 .f32) (main_arg23 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S50000x32 : Shape := ⟨2, ![50000, 32]⟩
abbrev S2x800000 : Shape := ⟨2, ![2, 800000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S10000x32 : Shape := ⟨2, ![10000, 32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S1x8 : Shape := ⟨2, ![1, 8]⟩
abbrev S50000x8 : Shape := ⟨2, ![50000, 8]⟩
abbrev S5000x8 : Shape := ⟨2, ![5000, 8]⟩
abbrev S5000x64 : Shape := ⟨2, ![5000, 64]⟩

abbrev nBuf : Space → Nat
  | .hbm => 121
  | .vmem => 43
  | .smem => 0
  | _ => 0

abbrev bufTy : (tb : Table) → Fin (tcTables nBuf tb) → BufTy
  | .hbm, ⟨0, _⟩ => ⟨S50000x64, .f32⟩
  | .hbm, ⟨1, _⟩ => ⟨S50000x32, .f32⟩
  | .hbm, ⟨2, _⟩ => ⟨S2x800000, .i32⟩
  | .hbm, ⟨3, _⟩ => ⟨S2x800000, .i32⟩
  | .hbm, ⟨4, _⟩ => ⟨S64x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x64, .f32⟩
  | .hbm, ⟨21, _⟩ => ⟨S64, .f32⟩
  | .hbm, ⟨22, _⟩ => ⟨S64x8, .f32⟩
  | .hbm, ⟨23, _⟩ => ⟨S8, .f32⟩
  | .hbm, ⟨24, _⟩ => ⟨S1x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S1x800000, .i32⟩
  | .hbm, ⟨29, _⟩ => ⟨S800000, .i32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .bf16⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .bf16⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .bf16⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .bf16⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x128, .bf16⟩
  | .hbm, ⟨110, _⟩ => ⟨S800000x128, .f32⟩
  | .hbm, ⟨111, _⟩ => ⟨S_, .f32⟩
  | .hbm, ⟨112, _⟩ => ⟨S50000x128, .f32⟩
  | .hbm, ⟨113, _⟩ => ⟨S800000x1, .i32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S1x64, .f32⟩
  | .hbm, ⟨119, _⟩ => ⟨S1x8, .f32⟩
  | .hbm, ⟨120, _⟩ => ⟨S50000x8, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x32, .f32⟩
  | .local _ .vmem, ⟨7, _⟩ => ⟨S10000x32, .f32⟩
  | .local _ .vmem, ⟨8, _⟩ => ⟨S32x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S128x64, .f32⟩
  | .local _ .vmem, ⟨38, _⟩ => ⟨S1x64, .f32⟩
  | .local _ .vmem, ⟨39, _⟩ => ⟨S64x8, .f32⟩
  | .local _ .vmem, ⟨40, _⟩ => ⟨S1x8, .f32⟩
  | .local _ .vmem, ⟨41, _⟩ => ⟨S5000x8, .f32⟩
  | .local _ .vmem, ⟨42, _⟩ => ⟨S5000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_8 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_c_10 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_11 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_12 : Ref sig .tc := ⟨.hbm, 101, rfl⟩
abbrev main_v63 : Ref sig .tc := ⟨.hbm, 102, rfl⟩
abbrev main_v64 : Ref sig .tc := ⟨.hbm, 103, rfl⟩
abbrev main_c_13 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_14 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg9_0 : Ref sig .tc := ⟨.vmem, 41, rfl⟩
abbrev cc4_stg9_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem9_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x8 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x8 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S10000x32_S10000x32_0_0 : ∀ a, (![0, 0] : Fin 2 → Nat) a + S10000x32.size a ≤ S10000x32.size a
  h_S10000x32 : 0 < S10000x32.numel
  inb_S32x128_S32x128_0_0 : ∀ a, (![0, 0] : Fin 2 → Nat) a + S32x128.size a ≤ S32x128.size a
  h_S32x128 : 0 < S32x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  shapeCasts_S8_S1x8 : S8.ShapeCasts S1x8
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  dot_S10000x64_S64x128_S10000x128_1_0_0_1_n_n_wf : DotDims.WF S10000x64 S64x128 S10000x128 [1] [0] [0] [1] [] []
  dot_S10000x32_S32x128_S10000x128_1_0_0_1_n_n_wf : DotDims.WF S10000x32 S32x128 S10000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x8.size a ≤ S64x8.size a
  hwx4_7 : ∀ i : grid4.Coords, EltTy.bits .f32 = 32 ∨ (Rect.block (s := S64x8) S64x8.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x8.size a ≤ S1x8.size a
  hwx4_8 : ∀ i : grid4.Coords, EltTy.bits .f32 = 32 ∨ (Rect.block (s := S1x8) S1x8.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x8.size a ≤ S50000x8.size a
  hwx4_9 : ∀ i : grid4.Coords, EltTy.bits .f32 = 32 ∨ (Rect.block (s := S50000x8) S5000x8.size (cc4_transform_9 i) (hinb4_9 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg22) S64x8.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v78) S1x8.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v79) S5000x8.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S50000x64 : Shape := ⟨2, ![50000, 64]⟩
abbrev S50000x32 : Shape := ⟨2, ![50000, 32]⟩
abbrev S2x800000 : Shape := ⟨2, ![2, 800000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S50000x128 : Shape := ⟨2, ![50000, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x64 : Shape := ⟨2, ![1, 64]⟩
abbrev S50000x8 : Shape := ⟨2, ![50000, 8]⟩
abbrev S1x8 : Shape := ⟨2, ![1, 8]⟩

abbrev nBuf : Space → Nat
  | .hbm => 245
  | .vmem => 0
  | .smem => 0
  | _ => 0

abbrev hbmTy0_0 (i : Nat) : BufTy := match i % 128 with
  | 0 => ⟨S50000x64, .f32⟩
  | 1 => ⟨S50000x32, .f32⟩
  | 2 => ⟨S2x800000, .i32⟩
  | 3 => ⟨S2x800000, .i32⟩
  | 4 => ⟨S64x128, .f32⟩
  | 5 => ⟨S128, .f32⟩
  | 6 => ⟨S32x128, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x64, .f32⟩
  | 21 => ⟨S64, .f32⟩
  | 22 => ⟨S64x8, .f32⟩
  | 23 => ⟨S8, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S1x800000, .i32⟩
  | 50 => ⟨S800000, .i32⟩
  | 51 => ⟨S_, .f32⟩
  | 52 => ⟨S50000x128, .f32⟩
  | 53 => ⟨S800000x1, .i32⟩
  | 54 => ⟨S50000x128, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x800000, .i32⟩
  | 87 => ⟨S800000, .i32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S1x800000, .i32⟩
  | 98 => ⟨S800000, .i32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S50000x1, .f32⟩
  | 126 => ⟨S_, .f32⟩
  | 127 => ⟨S50000x1, .f32⟩
  | _ => ⟨S50000x64, .f32⟩

abbrev hbmTy0_1 (i : Nat) : BufTy := match i % 128 with
  | 0 => ⟨S50000x1, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S50000x128, .f32⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S1x800000, .i32⟩
  | 20 => ⟨S800000, .i32⟩
  | 21 => ⟨S_, .f32⟩
  | 22 => ⟨S50000x128, .f32⟩
  | 23 => ⟨S800000x1, .i32⟩
  | 24 => ⟨S50000x128, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S1x800000, .i32⟩
  | 68 => ⟨S800000, .i32⟩
  | 69 => ⟨S_, .f32⟩
  | 70 => ⟨S50000x128, .f32⟩
  | 71 => ⟨S800000x1, .i32⟩
  | 72 => ⟨S50000x128, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S50000x1, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S50000x128, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x8, .f32⟩
  | 114 => ⟨S1x8, .f32⟩
  | 115 => ⟨S50000x8, .f32⟩
  | 116 => ⟨S50000x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_cst : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call2_v0 : Ref sig .tc := ⟨.hbm, 73, rfl⟩
abbrev main_call2_cst : Ref sig .tc := ⟨.hbm, 74, rfl⟩
abbrev main_call2_v1 : Ref sig .tc := ⟨.hbm, 75, rfl⟩
abbrev main_call2_v2 : Ref sig .tc := ⟨.hbm, 76, rfl⟩
abbrev main_v39 : Ref sig .tc := ⟨.hbm, 77, rfl⟩
abbrev main_cst_4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call3_cst : Ref sig .tc := ⟨.hbm, 83, rfl⟩
abbrev main_call3_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_5 : Ref sig .tc := ⟨.hbm, 88, rfl⟩
abbrev main_v47 : Ref sig .tc := ⟨.hbm, 89, rfl⟩
abbrev main_v48 : Ref sig .tc := ⟨.hbm, 90, rfl⟩
abbrev main_c_6 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_7 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_8 : Ref sig .tc := ⟨.hbm, 103, rfl⟩
abbrev main_v59 : Ref sig .tc := ⟨.hbm, 104, rfl⟩
abbrev main_cst_9 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_call4_v2 : Ref sig .tc := ⟨.hbm, 124, rfl⟩
abbrev main_v74 : Ref sig .tc := ⟨.hbm, 125, rfl⟩
abbrev main_cst_11 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_call5_cst : Ref sig .tc := ⟨.hbm, 131, rfl⟩
abbrev main_call5_v0 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_12 : Ref sig .tc := ⟨.hbm, 138, rfl⟩
abbrev main_v84 : Ref sig .tc := ⟨.hbm, 139, rfl⟩
abbrev main_v85 : Ref sig .tc := ⟨.hbm, 140, rfl⟩
abbrev main_c_13 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_14 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_15 : Ref sig .tc := ⟨.hbm, 153, rfl⟩
abbrev main_v96 : Ref sig .tc := ⟨.hbm, 154, rfl⟩
abbrev main_cst_16 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_17 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_v0 : Ref sig .tc := ⟨.hbm, 171, rfl⟩
abbrev main_call6_cst : Ref sig .tc := ⟨.hbm, 172, rfl⟩
abbrev main_call6_v1 : Ref sig .tc := ⟨.hbm, 173, rfl⟩
abbrev main_call6_v2 : Ref sig .tc := ⟨.hbm, 174, rfl⟩
abbrev main_v111 : Ref sig .tc := ⟨.hbm, 175, rfl⟩
abbrev main_cst_18 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_call7_cst : Ref sig .tc := ⟨.hbm, 181, rfl⟩
abbrev main_call7_v0 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_c_19 : Ref sig .tc := ⟨.hbm, 186, rfl⟩
abbrev main_v119 : Ref sig .tc := ⟨.hbm, 187, rfl⟩
abbrev main_v120 : Ref sig .tc := ⟨.hbm, 188, rfl⟩
abbrev main_c_20 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_cst_21 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_22 : Ref sig .tc := ⟨.hbm, 201, rfl⟩
abbrev main_v131 : Ref sig .tc := ⟨.hbm, 202, rfl⟩
abbrev main_cst_23 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_24 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_call8_v0 : Ref sig .tc := ⟨.hbm, 219, rfl⟩
abbrev main_call8_cst : Ref sig .tc := ⟨.hbm, 220, rfl⟩
abbrev main_call8_v1 : Ref sig .tc := ⟨.hbm, 221, rfl⟩
abbrev main_call8_v2 : Ref sig .tc := ⟨.hbm, 222, rfl⟩
abbrev main_v146 : Ref sig .tc := ⟨.hbm, 223, rfl⟩
abbrev main_cst_25 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_call9_cst : Ref sig .tc := ⟨.hbm, 229, rfl⟩
abbrev main_call9_v0 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_call10_cst : Ref sig .tc := ⟨.hbm, 238, rfl⟩
abbrev main_call10_v0 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  dot_S50000x64_S64x128_S50000x128_1_0_0_1_n_n_wf : DotDims.WF S50000x64 S64x128 S50000x128 [1] [0] [0] [1] [] []
  dot_S50000x32_S32x128_S50000x128_1_0_0_1_n_n_wf : DotDims.WF S50000x32 S32x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x8_S50000x8_1_0_0_1_n_n_wf : DotDims.WF S50000x64 S64x8 S50000x8 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.Spec.lean ====
/-
  The mathematics of the two programs, stated once.

  Both programs compute a two-layer message-passing network on a bipartite graph of 50000 "user" and 50000 "item"
  nodes with 800000 edges in each direction, followed by a two-layer perceptron on the users:

    * an encoder of a node table:  relu (x · w + b), row by row;
    * a mean aggregation over incoming edges:  for a table h and an edge list (src, dst), the array whose row p is the
      sum of the rows h[src e] over the edges e with dst e = p, divided by max (number of such edges, 1);
    * an update of a node table from its aggregate a and its own rows x:
        out = a · wl + bl + x · wr,   relu (out / max (‖out‖₂, ε)) + x,   row by row;
    * the head:  relu (h · w1 + b1) · w2 + b2, row by row.

  Everything is read over the extended reals, where every change of float format is the identity. The row-wise stages
  are given as functions of ONE row (so that a block of rows and the whole table are read by the same formula); the
  aggregation is kept as the composition of host operations it is printed as, since both programs apply the same ones.
  The only place the two programs differ is the division of the aggregation: one multiplies the sums by
  1 / max (count, 1), the other divides them by max (count, 1); the two agree because max (count, 1) is never zero.
-/
import proofs.«406006_j89026082111551_3_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.Spec

open Idealize.ShloMosaic Idealize.ShloMosaic.ValueIdx Cert.ReferenceIdeal Cert.ReferenceIdeal.Facts₀

/-! ## Rows -/

/-- The lower clamp of a row's norm. -/
abbrev eps : EReal := Ideal.ofBits .f32 0x2B8CBCCC#32

/-- One row of `relu (x · w + b)`, at column `q`. -/
def linRow {K M : ℕ} (xr : Fin K → EReal) (w : Fin K → Fin M → EReal) (b : Fin M → EReal) (q : Fin M) : EReal :=
  max ((∑ k : Fin K, xr k * w k q) + b q) 0

/-- One row of `a · wl + bl + x · wr`, at column `q`. -/
def sageOut (a x : Fin 128 → EReal) (wl wr : Fin 128 → Fin 128 → EReal) (bl : Fin 128 → EReal) (q : Fin 128) : EReal :=
  (∑ k : Fin 128, a k * wl k q) + bl q + ∑ k : Fin 128, x k * wr k q

/-- One row of the update: the row of `sageOut` divided by its clamped Euclidean norm, rectified, plus the node's own row. -/
def sageRow (a x : Fin 128 → EReal) (wl wr : Fin 128 → Fin 128 → EReal) (bl : Fin 128 → EReal) (q : Fin 128) : EReal :=
  max (Ideal.div (sageOut a x wl wr bl q)
      (max (Ideal.sqrt (∑ n : Fin 128, sageOut a x wl wr bl n * sageOut a x wl wr bl n)) eps)) 0 + x q

/-- One row of the head `relu (h · w1 + b1) · w2 + b2`, at column `j`. -/
def headRow (h : Fin 128 → EReal) (w1 : Fin 128 → Fin 64 → EReal) (b1 : Fin 64 → EReal)
    (w2 : Fin 64 → Fin 8 → EReal) (b2 : Fin 8 → EReal) (j : Fin 8) : EReal :=
  (∑ k : Fin 64, linRow h w1 b1 k * w2 k j) + b2 j

/-! ## Arrays as rows -/

/-- A rank-2 array as a function of its row and column. -/
abbrev mat {a b : ℕ} (X : (⟨2, ![a, b]⟩ : Shape).Idx → EReal) : Fin a → Fin b → EReal := fun p k => X (ix2 p k)
/-- A rank-1 array as a function of its coordinate. -/
abbrev vec {a : ℕ} (X : (⟨1, ![a]⟩ : Shape).Idx → EReal) : Fin a → EReal := fun q => X (ix1 q)

/-- The one row of a `[1, b]` array as a function of the column. -/
abbrev row1 {b : ℕ} (X : (⟨2, ![1, b]⟩ : Shape).Idx → EReal) : Fin b → EReal := fun q => X (ix2 (0 : Fin 1) q)

/-- `relu (X · W + b)` as an array. -/
def linA {N K M : ℕ} (X : (⟨2, ![N, K]⟩ : Shape).Idx → EReal) (W : (⟨2, ![K, M]⟩ : Shape).Idx → EReal)
    (b : Fin M → EReal) : (⟨2, ![N, M]⟩ : Shape).Idx → EReal :=
  fun i => linRow (mat X (i 0)) (mat W) b (i 1)

/-- The update as an array. -/
def sageA {N : ℕ} (A X : (⟨2, ![N, 128]⟩ : Shape).Idx → EReal) (WL : (⟨2, ![128, 128]⟩ : Shape).Idx → EReal)
    (bl : Fin 128 → EReal) (WR : (⟨2, ![128, 128]⟩ : Shape).Idx → EReal) :
    (⟨2, ![N, 128]⟩ : Shape).Idx → EReal :=
  fun i => sageRow (mat A (i 0)) (mat X (i 0)) (mat WL) (mat WR) bl (i 1)

/-- The head as an array. -/
def headA {N : ℕ} (H : (⟨2, ![N, 128]⟩ : Shape).Idx → EReal) (W1 : (⟨2, ![128, 64]⟩ : Shape).Idx → EReal)
    (b1 : Fin 64 → EReal) (W2 : (⟨2, ![64, 8]⟩ : Shape).Idx → EReal)
    (b2 : Fin 8 → EReal) : (⟨2, ![N, 8]⟩ : Shape).Idx → EReal :=
  fun i => headRow (mat H (i 0)) (mat W1) b1 (mat W2) b2 (i 1)

/-! ## The mean aggregation, as the host operations both programs apply -/

section Mean

/-- The edges' source nodes: row 0 of the edge list, a negative word wrapped around by the table's length, as a column. -/
def srcSel (ei : IVec S2x800000 32) : IVec S800000x1 32 :=
  broadcastInDim S800000x1 ![0] bcast_S800000_S800000x1_0
    (select
      (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- The edges' destination nodes: row 1 of the edge list, as a column. -/
def dstIdx (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

/-- Row p: the sum of the rows `H[src e]` over the edges `e` into `p`. -/
def segSum (ei : IVec S2x800000 32) (H : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstIdx ei)
    (Host.gather gather_S50000x128_S800000x1_S800000x128_1_0_n_n_0_1_1128 H (srcSel ei))

/-- Entry p: the number of edges into `p`, at least one. -/
def cnt (ei : IVec S2x800000 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32))
      (dstIdx ei)
      (broadcastInDim S800000 ![] bcast_S_S800000 (constant (F := Ideal) S_ .f32 0x3F800000#32)))
    (broadcastInDim S50000 ![] bcast_S_S50000 (constant (F := Ideal) S_ .f32 0x3F800000#32))

/-- A vector of 50000 entries copied along 128 columns. -/
def cols (v : FVec Ideal S50000 .f32) : FVec Ideal S50000x128 .f32 :=
  broadcastInDim S50000x128 ![0, 1] bcast_S50000x1_S50000x128_0_1 (broadcastInDim S50000x1 ![0] bcast_S50000_S50000x1_0 v)

/-- The mean over incoming edges: the sums divided by the counts. -/
def meanA (ei : IVec S2x800000 32) (H : FVec Ideal S50000x128 .f32) : FVec Ideal S50000x128 .f32 :=
  Host.divf (F := Ideal) (segSum ei H) (cols (cnt ei))

/-- The same mean with the reciprocal taken first: the sums times `1 / count`. -/
def meanMulA (ei : IVec S2x800000 32) (H : FVec Ideal S50000x128 .f32) : FVec Ideal S50000x128 .f32 :=
  mulf (F := Ideal) (segSum ei H)
    (cols (Host.divf (F := Ideal) (broadcastInDim S50000 ![] bcast_S_S50000 (constant (F := Ideal) S_ .f32 0x3F800000#32)) (cnt ei)))

end Mean

/-! ## The one law: a product with a reciprocal is the quotient, off zero -/

/-- Over the extended reals `s · (1 / c) = s / c` whenever `c ≠ 0` (infinite `c` included: both sides are `s · 0`). -/
theorem mul_one_div {s c : EReal} (hc : c ≠ 0) : s * Ideal.div 1 c = Ideal.div s c := by
  unfold Ideal.div
  rw [if_neg hc, if_neg hc, one_mul]

/-- A maximum with one is never zero. -/
theorem max_one_ne_zero (a : EReal) : max a 1 ≠ 0 :=
  ne_of_gt (lt_of_lt_of_le zero_lt_one (le_max_right a 1))

/-- Copying a vector along the columns reads, at `(p, q)`, the vector's entry `p`. -/
theorem cols_apply (v : FVec Ideal S50000 .f32) (i : S50000x128.Idx) :
    cols v i = v (ix1 (i 0)) := by
  unfold cols
  rw [broadcastInDim_apply _ bcast_S50000x1_S50000x128_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ bcast_S50000_S50000x1_0 v _ (ix1 (i 0)) (fun a => match a with
    | ⟨0, _⟩ => by show (i 0).val = if (50000 : Nat) = 1 then 0 else (i 0).val; rw [if_neg (by decide)])

/-- The vector of ones reads one everywhere. -/
theorem ones_apply (j : S50000.Idx) :
    broadcastInDim S50000 ![] bcast_S_S50000 (constant (F := Ideal) S_ .f32 0x3F800000#32) j = 1 :=
  (broadcastInDim_apply _ bcast_S_S50000 (constant (F := Ideal) S_ .f32 0x3F800000#32) j ix0 (fun a => a.elim0)).trans
    Ideal.ofBits_one_f32

/-- A count clamped below by one is never zero. -/
theorem cnt_ne_zero (ei : IVec S2x800000 32) (j : S50000.Idx) : cnt ei j ≠ 0 := by
  unfold cnt
  rw [maximumf_apply, ones_apply]
  exact max_one_ne_zero _

/-- The host's quotient of two arrays, read at an index. -/
theorem hostDivf_apply {s : Shape} {φ : FTy} (a b : FVec Ideal s φ) (i : s.Idx) :
    Host.divf a b i = Ideal.div (a i) (b i) := rfl

/-- The two forms of the mean are one array. -/
theorem meanMulA_eq (ei : IVec S2x800000 32) (H : FVec Ideal S50000x128 .f32) : meanMulA ei H = meanA ei H := by
  funext i
  unfold meanMulA meanA
  rw [mulf_apply, hostDivf_apply, cols_apply, cols_apply, hostDivf_apply, ones_apply]
  exact mul_one_div (cnt_ne_zero ei _)

/-! ## The whole computation -/

section Whole

variable (xu : FVec Ideal S50000x64 .f32) (xi : FVec Ideal S50000x32 .f32) (eui eiu : IVec S2x800000 32)
  (wu : FVec Ideal S64x128 .f32) (bu : FVec Ideal S128 .f32) (wi : FVec Ideal S32x128 .f32) (bi : FVec Ideal S128 .f32)

/-- The encoded users. -/
def hu0 : FVec Ideal S50000x128 .f32 := linA xu wu (vec bu)
/-- The encoded items. -/
def hi0 : FVec Ideal S50000x128 .f32 := linA xi wi (vec bi)

variable (wl0 : FVec Ideal S128x128 .f32) (bl0 : FVec Ideal S128 .f32) (wr0 : FVec Ideal S128x128 .f32)
  (wl1 : FVec Ideal S128x128 .f32) (bl1 : FVec Ideal S128 .f32) (wr1 : FVec Ideal S128x128 .f32)

/-- The items after the first layer: updated from the mean of the users along the user-to-item edges. -/
def hi1 : FVec Ideal S50000x128 .f32 := sageA (meanA eui (hu0 xu wu bu)) (hi0 xi wi bi) wl0 (vec bl0) wr0
/-- The users after the first layer: updated from the mean of the items along the item-to-user edges. -/
def hu1 : FVec Ideal S50000x128 .f32 := sageA (meanA eiu (hi0 xi wi bi)) (hu0 xu wu bu) wl1 (vec bl1) wr1

variable (wl2 : FVec Ideal S128x128 .f32) (bl2 : FVec Ideal S128 .f32) (wr2 : FVec Ideal S128x128 .f32)

/-- The users after the second layer: updated from the mean of the first layer's items. -/
def hu2 : FVec Ideal S50000x128 .f32 :=
  sageA (meanA eiu (hi1 xu xi eui wu bu wi bi wl0 bl0 wr0)) (hu1 xu xi eiu wu bu wi bi wl1 bl1 wr1) wl2 (vec bl2) wr2

variable (w1 : FVec Ideal S128x64 .f32) (b1 : FVec Ideal S64 .f32) (w2 : FVec Ideal S64x8 .f32) (b2 : FVec Ideal S8 .f32)

/-- The head applied to the users after the second layer: what both programs return. -/
def result : FVec Ideal S50000x8 .f32 :=
  headA (hu2 xu xi eui eiu wu bu wi bi wl0 bl0 wr0 wl1 bl1 wr1 wl2 bl2 wr2) w1 (vec b1) w2 (vec b2)

end Whole

end Cert.Spec

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.RegLin0.lean ====
/-
  The first encoder's table. The region computes relu (x · w + b) on blocks of 10000 rows of the 50000-row input, each
  row of a block depending only on the same row of the input block and on the whole weight and bias; the five blocks
  tile the table, so the table the region leaves is relu (x · w + b) of the arrays the region found.
-/
import proofs.«406006_j89026082111551_3_alg».proof.Proof.Gen.KernelIdeal.Frame
import proofs.«406006_j89026082111551_3_alg».proof.Proof.Spec
import proofs.«406006_j89026082111551_3_alg».proof.Proof.LibPlainDot
import proofs.«406006_j89026082111551_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

theorem dot_eq : dot_S10000x64_S64x128_S10000x128_1_0_0_1_n_n = DotDims.plain 10000 64 128 := rfl

/-- One entry of a block's result: the row formula of the block's row. -/
theorem pay_apply (x0 : Vec Ideal S10000x64 .f32) (x1 : Vec Ideal S64x128 .f32) (x2 : Vec Ideal S1x128 .f32)
    (p : Fin 10000) (q : Fin 128) :
    k0_pay1 x0 x1 x2 (ix2 p q) = Spec.linRow (Spec.mat x0 p) (Spec.mat x1) (Spec.row1 x2) q := by
  unfold k0_pay1 Spec.linRow
  rw [maximumf_apply, addf_apply, broadcast_apply, dot_eq, Cert.Lib.PlainDot.matmul_plain_zero_apply,
    broadcastTo_1b_ab_apply, shapeCast_self]
  exact congrArg₂ max rfl Ideal.ofBits_zero_f32

/-- The whole table as one function of the arrays the region finds. -/
abbrev G (c : Dev nD) : S50000x128.Idx → EReal :=
  Spec.linA (N := 50000) (K := 64) (M := 128) (V c main_arg0) (V c main_arg4) (Spec.row1 (V c main_v0))

/-- The printed index maps over the grid: the input rows and the output rows move together, the weight and the bias stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x128) hz, View.ld_unit_zero (S := S1x128) hz]
  funext j
  obtain ⟨p, q, rfl⟩ : ∃ (p : Fin 10000) (q : Fin 128), j = (ix2 p q : S10000x128.Idx) := ⟨j 0, j 1, eq_ix2 j⟩
  obtain ⟨e00, e01, e10, e11, e20, e21, e31, e30⟩ := idx_facts t
  show k0_pay1 (iblk0 V c 0 t) (iblk0 V c 1 t) (iblk0 V c 2 t) (ix2 p q) = G V c (((cfg0.win 3).blk t).view.emb (ix2 p q))
  refine (pay_apply (iblk0 V c 0 t) (iblk0 V c 1 t) (iblk0 V c 2 t) p q).trans ?_
  show Spec.linRow _ _ _ q = Spec.linRow (Spec.mat (V c main_arg0) ((((cfg0.win 3).blk t).view.emb (ix2 p q)) 0))
    (Spec.mat (V c main_arg4)) (Spec.row1 (V c main_v0)) ((((cfg0.win 3).blk t).view.emb (ix2 p q)) 1)
  have hq : (((cfg0.win 3).blk t).view.emb (ix2 p q)) 1 = q :=
    Fin.ext (by show win0_3.index t (1 : Fin 2) * 128 + 1 * q.val = q.val; omega)
  have h0 : Spec.mat (iblk0 V c 0 t) p
      = Spec.mat (V c main_arg0) ((((cfg0.win 3).blk t).view.emb (ix2 p q)) 0) := by
    funext k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have h1 : Spec.mat (iblk0 V c 1 t) = Spec.mat (V c main_arg4) := by
    funext k n
    show V c main_arg4 (((cfg0.win 1).blk t).view.emb (ix2 k n)) = V c main_arg4 (ix2 k n)
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * n.val = n.val; omega
  have h2 : Spec.row1 (iblk0 V c 2 t) = Spec.row1 (V c main_v0) := by
    funext n
    show V c main_v0 (((cfg0.win 2).blk t).view.emb (ix2 (0 : Fin 1) n)) = V c main_v0 (ix2 (0 : Fin 1) n)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * n.val = n.val; omega
  rw [h0, h1, h2, hq]

/-- An index of the table is in point `t`'s block iff each coordinate is in the block's range on its axis. -/
theorem mem_blk (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

/-- Row `r` of the table lies in the block of point `r / 10000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 10000 < cfg0.N := by rw [show cfg0.N = 5 from N_0]; omega
  obtain ⟨-, -, -, -, -, -, e31, e30⟩ := idx_facts ⟨(i 0).val / 10000, hN⟩
  refine ⟨⟨(i 0).val / 10000, hN⟩, flush0_3 _, ?_⟩
  rw [mem_blk]
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, hN⟩ (1 : Fin 2) * 128 ≤ (i 1).val
      ∧ (i 1).val < win0_3.index ⟨(i 0).val / 10000, hN⟩ (1 : Fin 2) * 128 + 128
    omega

/-- The table region 0 leaves is `relu (x · w + b)` of the arrays it found. -/
theorem arr (c : Dev nD) :
    (dat0 (F := Ideal) V c).arrAt 3 cfg0.N
      = Spec.linA (N := 50000) (K := 64) (M := 128) (V c main_arg0) (V c main_arg4) (Spec.row1 (V c main_v0)) :=
  (dat0 V c).arrAt_eq_of_cover 3 (G V c) (fun t _ => flushed_eq V c t) cover

end Cert.KernelIdeal.Reg0

end
-- ==== Proof.RegLin1.lean ====
/-
  The second encoder's table (32 input columns). The region computes relu (x · w + b) on blocks of 10000 rows of the 50000-row input, each
  row of a block depending only on the same row of the input block and on the whole weight and bias; the five blocks
  tile the table, so the table the region leaves is relu (x · w + b) of the arrays the region found.
-/
import proofs.«406006_j89026082111551_3_alg».proof.Proof.Gen.KernelIdeal.Frame
import proofs.«406006_j89026082111551_3_alg».proof.Proof.Spec
import proofs.«406006_j89026082111551_3_alg».proof.Proof.LibPlainDot
import proofs.«406006_j89026082111551_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

theorem dot_eq : dot_S10000x32_S32x128_S10000x128_1_0_0_1_n_n = DotDims.plain 10000 32 128 := rfl

/-- One entry of a block's result: the row formula of the block's row. -/
theorem pay_apply (x0 : Vec Ideal S10000x32 .f32) (x1 : Vec Ideal S32x128 .f32) (x2 : Vec Ideal S1x128 .f32)
    (p : Fin 10000) (q : Fin 128) :
    k1_pay1 x0 x1 x2 (ix2 p q) = Spec.linRow (Spec.mat x0 p) (Spec.mat x1) (Spec.row1 x2) q := by
  unfold k1_pay1 Spec.linRow
  rw [maximumf_apply, addf_apply, broadcast_apply, dot_eq, Cert.Lib.PlainDot.matmul_plain_zero_apply,
    broadcastTo_1b_ab_apply, shapeCast_self]
  exact congrArg₂ max rfl Ideal.ofBits_zero_f32

/-- The whole table as one function of the arrays the region finds. -/
abbrev G (c : Dev nD) : S50000x128.Idx → EReal :=
  Spec.linA (N := 50000) (K := 32) (M := 128) (V c main_arg1) (V c main_arg6) (Spec.row1 (V c main_v2))

/-- The printed index maps over the grid: the input rows and the output rows move together, the weight and the bias stay. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x32) hz, View.ld_unit_zero (S := S32x128) hz, View.ld_unit_zero (S := S1x128) hz]
  funext j
  obtain ⟨p, q, rfl⟩ : ∃ (p : Fin 10000) (q : Fin 128), j = (ix2 p q : S10000x128.Idx) := ⟨j 0, j 1, eq_ix2 j⟩
  obtain ⟨e00, e01, e10, e11, e20, e21, e31, e30⟩ := idx_facts t
  show k1_pay1 (iblk1 V c 0 t) (iblk1 V c 1 t) (iblk1 V c 2 t) (ix2 p q) = G V c (((cfg1.win 3).blk t).view.emb (ix2 p q))
  refine (pay_apply (iblk1 V c 0 t) (iblk1 V c 1 t) (iblk1 V c 2 t) p q).trans ?_
  show Spec.linRow _ _ _ q = Spec.linRow (Spec.mat (V c main_arg1) ((((cfg1.win 3).blk t).view.emb (ix2 p q)) 0))
    (Spec.mat (V c main_arg6)) (Spec.row1 (V c main_v2)) ((((cfg1.win 3).blk t).view.emb (ix2 p q)) 1)
  have hq : (((cfg1.win 3).blk t).view.emb (ix2 p q)) 1 = q :=
    Fin.ext (by show win1_3.index t (1 : Fin 2) * 128 + 1 * q.val = q.val; omega)
  have h0 : Spec.mat (iblk1 V c 0 t) p
      = Spec.mat (V c main_arg1) ((((cfg1.win 3).blk t).view.emb (ix2 p q)) 0) := by
    funext k
    show V c main_arg1 (((cfg1.win 0).blk t).view.emb (ix2 p k)) = V c main_arg1 (ix2 _ k)
    refine congrArg _ (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 32 + 1 * k.val = k.val; omega
  have h1 : Spec.mat (iblk1 V c 1 t) = Spec.mat (V c main_arg6) := by
    funext k n
    show V c main_arg6 (((cfg1.win 1).blk t).view.emb (ix2 k n)) = V c main_arg6 (ix2 k n)
    refine congrArg _ (funext fun a => Fin.ext ?_)
    match a with
    | ⟨0, _⟩ => show win1_1.index t (0 : Fin 2) * 32 + 1 * k.val = k.val; omega
    | ⟨1, _⟩ => show win1_1.index t (1 : Fin 2) * 128 + 1 * n.val = n.val; omega
  have h2 : Spec.row1 (iblk1 V c 2 t) = Spec.row1 (V c main_v2) := by
    funext n
    show V c main_v2 (((cfg1.win 2).blk t).view.emb (ix2 (0 : Fin 1) n)) = V c main_v2 (ix2 (0 : Fin 1) n)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * n.val = n.val; omega
  rw [h0, h1, h2, hq]

/-- An index of the table is in point `t`'s block iff each coordinate is in the block's range on its axis. -/
theorem mem_blk (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v3).slice (win1_3.rect t)).set ↔ _
  rw [View.set_slice_whole, Rect.mem_set_unit]
  exact Iff.rfl

/-- Row `r` of the table lies in the block of point `r / 10000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 10000 < cfg1.N := by rw [show cfg1.N = 5 from N_1]; omega
  obtain ⟨-, -, -, -, -, -, e31, e30⟩ := idx_facts ⟨(i 0).val / 10000, hN⟩
  refine ⟨⟨(i 0).val / 10000, hN⟩, flush1_3 _, ?_⟩
  rw [mem_blk]
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, hN⟩ (1 : Fin 2) * 128 ≤ (i 1).val
      ∧ (i 1).val < win1_3.index ⟨(i 0).val / 10000, hN⟩ (1 : Fin 2) * 128 + 128
    omega

/-- The table region 1 leaves is `relu (x · w + b)` of the arrays it found. -/
theorem arr (c : Dev nD) :
    (dat1 (F := Ideal) V c).arrAt 3 cfg1.N
      = Spec.linA (N := 50000) (K := 32) (M := 128) (V c main_arg1) (V c main_arg6) (Spec.row1 (V c main_v2)) :=
  (dat1 V c).arrAt_eq_of_cover 3 (G V c) (fun t _ => flushed_eq V c t) cover

end Cert.KernelIdeal.Reg1

end
-- ==== Proof.RegSage2.lean ====
/-
  The first layer's item update. The region works on blocks of 5000 rows; a row of the result depends only on the same
  row of the aggregate and of the node table and on the whole weights and bias; the ten blocks tile the table.
-/
import proofs.«406006_j89026082111551_3_alg».proof.Proof.Gen.KernelIdeal.Frame
import proofs.«406006_j89026082111551_3_alg».proof.Proof.Spec
import proofs.«406006_j89026082111551_3_alg».proof.Proof.LibPlainDot
import proofs.«406006_j89026082111551_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The printed record of the two products is the plain product of a 5000×128 by a 128×128 array. -/
theorem dot_eq : dot_S5000x128_S128x128_S5000x128_1_0_0_1_n_n = DotDims.plain 5000 128 128 := rfl

/-- The linear part of the update on a block of rows: `a · wl + bl + x · wr`. -/
def outBlk (a x : Vec Ideal S5000x128 .f32) (wl wr : Vec Ideal S128x128 .f32) (bl : Vec Ideal S1x128 .f32) :
    FVec Ideal S5000x128 .f32 :=
  addf
    (addf
      (matmul dot_S5000x128_S128x128_S5000x128_1_0_0_1_n_n none
        (truncf .bf16 (shapeCast S5000x128 a shapeCasts_S5000x128_S5000x128) bitsLt_bf16_f32)
        (truncf .bf16 wl bitsLt_bf16_f32) (constant (F := Ideal) S5000x128 .f32 0x00000000#32))
      (broadcastTo S5000x128 (shapeCast S1x128 bl shapeCasts_S1x128_S1x128) broadcasts_S1x128_S5000x128))
    (matmul dot_S5000x128_S128x128_S5000x128_1_0_0_1_n_n none
      (truncf .bf16 (shapeCast S5000x128 x shapeCasts_S5000x128_S5000x128) bitsLt_bf16_f32)
      (truncf .bf16 wr bitsLt_bf16_f32) (constant (F := Ideal) S5000x128 .f32 0x00000000#32))

/-- Entry (p, n) of the linear part is the row formula of row p. -/
theorem outBlk_apply (a x : Vec Ideal S5000x128 .f32) (wl wr : Vec Ideal S128x128 .f32) (bl : Vec Ideal S1x128 .f32)
    (p : Fin 5000) (n : Fin 128) :
    outBlk a x wl wr bl (ix2 p n) = Spec.sageOut (Spec.mat a p) (Spec.mat x p) (Spec.mat wl) (Spec.mat wr) (Spec.row1 bl) n := by
  unfold outBlk Spec.sageOut
  rw [addf_apply, addf_apply, dot_eq, Cert.Lib.PlainDot.matmul_plain_zero_apply,
    Cert.Lib.PlainDot.matmul_plain_zero_apply, broadcastTo_1b_ab_apply, shapeCast_self, shapeCast_self, shapeCast_self]
  rfl

/-- The sum of the squares of row p of the linear part. -/
theorem sumsq_apply (a x : Vec Ideal S5000x128 .f32) (wl wr : Vec Ideal S128x128 .f32) (bl : Vec Ideal S1x128 .f32)
    (p : Fin 5000) :
    multiReduction (F := Ideal) .add [1] S5000 (mulf (outBlk a x wl wr bl) (outBlk a x wl wr bl)) 0x00000000#32
        reduces_S5000x128_S5000 (.inl rfl) rfl (ix1 p)
      = ∑ n : Fin 128, Spec.sageOut (Spec.mat a p) (Spec.mat x p) (Spec.mat wl) (Spec.mat wr) (Spec.row1 bl) n
          * Spec.sageOut (Spec.mat a p) (Spec.mat x p) (Spec.mat wl) (Spec.mat wr) (Spec.row1 bl) n :=
  (Cert.RowOps.laneSum_apply _ reduces_S5000x128_S5000 (.inl rfl) rfl p).trans
    (Finset.sum_congr rfl fun n _ => by rw [mulf_apply, outBlk_apply])

/-- The payload the region's body stores is, entry by entry, the update's row formula. -/
theorem pay_apply (a x : Vec Ideal S5000x128 .f32) (wl wr : Vec Ideal S128x128 .f32) (bl : Vec Ideal S1x128 .f32)
    (p : Fin 5000) (q : Fin 128) :
    k2_pay1 (F := Ideal) a x wl wr bl (ix2 p q)
      = Spec.sageRow (Spec.mat a p) (Spec.mat x p) (Spec.mat wl) (Spec.mat wr) (Spec.row1 bl) q := by
  show addf (maximumf (divf (outBlk a x wl wr bl)
        (broadcastTo S5000x128
          (maximumf
            (sqrt (shapeCast S5000x1
              (multiReduction (F := Ideal) .add [1] S5000 (mulf (outBlk a x wl wr bl) (outBlk a x wl wr bl)) 0x00000000#32
                reduces_S5000x128_S5000 (.inl rfl) rfl) shapeCasts_S5000_S5000x1))
            (broadcast S5000x1 (Scalar.ofBits (F := Ideal) .f32 0x2B8CBCCC#32)))
          broadcasts_S5000x1_S5000x128))
      (broadcast S5000x128 (Scalar.ofBits (F := Ideal) .f32 0x00000000#32)))
    (shapeCast S5000x128 x shapeCasts_S5000x128_S5000x128) (ix2 p q) = _
  rw [addf_apply, maximumf_apply, divf_apply, broadcast_apply, outBlk_apply,
    Cert.RowOps.broadcastTo_a1_ab_apply, maximumf_apply, broadcast_apply,
    shapeCast_self x shapeCasts_S5000x128_S5000x128]
  show max (Ideal.div _ (max (Ideal.sqrt (shapeCast S5000x1 _ shapeCasts_S5000_S5000x1 (ix2 p (0 : Fin 1)))) _)) _ + _ = _
  rw [Cert.RowOps.shapeCast_a_a1_apply]
  unfold Spec.sageRow
  refine congrArg₂ (· + ·) (congrArg₂ max (congrArg (Ideal.div _) (congrArg (fun z => max (Ideal.sqrt z) Spec.eps) ?_))
    Ideal.ofBits_zero_f32) rfl
  exact sumsq_apply a x wl wr bl p

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The whole table as one function of the arrays the region finds. -/
abbrev G (c : Dev nD) : S50000x128.Idx → EReal :=
  Spec.sageA (N := 50000) (V c main_v43) (V c main_v3) (V c main_arg8) (Spec.row1 (V c main_v44)) (V c main_arg10)

/-- The printed index maps, decided over the grid: the aggregate's and the node table's blocks move with the result's,
    the weights and the bias are whole, and the result's block index is the point itself. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) = t.val :=
  (by decide +kernel : ∀ t : Fin grid2.N, _)

set_option maxHeartbeats 2000000 in
/-- What point `t` writes back is block `t` of the update of the arrays the region found. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  obtain ⟨e00, e01, e10, e11, e20, e21, e30, e31, e40, e41, e51, e50⟩ := idx_facts t
  show k2_pay1 (iblk2 V c 0 t) (iblk2 V c 1 t) (iblk2 V c 2 t) (iblk2 V c 4 t) (iblk2 V c 3 t) (ix2 p q)
    = G V c (((cfg2.win 5).blk t).view.emb (ix2 p q))
  refine (pay_apply (iblk2 V c 0 t) (iblk2 V c 1 t) (iblk2 V c 2 t) (iblk2 V c 4 t) (iblk2 V c 3 t) p q).trans ?_
  show Spec.sageRow _ _ _ _ _ q
    = Spec.sageRow (Spec.mat (V c main_v43) ((((cfg2.win 5).blk t).view.emb (ix2 p q)) 0))
        (Spec.mat (V c main_v3) ((((cfg2.win 5).blk t).view.emb (ix2 p q)) 0))
        (Spec.mat (V c main_arg8)) (Spec.mat (V c main_arg10)) (Spec.row1 (V c main_v44))
        ((((cfg2.win 5).blk t).view.emb (ix2 p q)) 1)
  have hq : (((cfg2.win 5).blk t).view.emb (ix2 p q)) 1 = q :=
    Fin.ext (by show win2_5.index t (1 : Fin 2) * 128 + 1 * q.val = q.val; omega)
  have h0 : Spec.mat (iblk2 V c 0 t) p
      = Spec.mat (V c main_v43) ((((cfg2.win 5).blk t).view.emb (ix2 p q)) 0) := by
    funext k
    show V c main_v43 (((cfg2.win 0).blk t).view.emb (ix2 p k)) = V c main_v43 (ix2 _ k)
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have h1 : Spec.mat (iblk2 V c 1 t) p
      = Spec.mat (V c main_v3) ((((cfg2.win 5).blk t).view.emb (ix2 p q)) 0) := by
    funext k
    show V c main_v3 (((cfg2.win 1).blk t).view.emb (ix2 p k)) = V c main_v3 (ix2 _ k)
    refine congrArg _ (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have h2 : Spec.mat (iblk2 V c 2 t) = Spec.mat (V c main_arg8) := by
    funext k n
    show V c main_arg8 (((cfg2.win 2).blk t).view.emb (ix2 k n)) = V c main_arg8 (ix2 k n)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * n.val = n.val; omega
  have h4 : Spec.mat (iblk2 V c 4 t) = Spec.mat (V c main_arg10) := by
    funext k n
    show V c main_arg10 (((cfg2.win 4).blk t).view.emb (ix2 k n)) = V c main_arg10 (ix2 k n)
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * n.val = n.val; omega
  have h3 : Spec.row1 (iblk2 V c 3 t) = Spec.row1 (V c main_v44) := by
    funext n
    show V c main_v44 (((cfg2.win 3).blk t).view.emb (ix2 (0 : Fin 1) n)) = V c main_v44 (ix2 (0 : Fin 1) n)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * n.val = n.val; omega
  rw [h0, h1, h2, h4, h3, hq]

/-- An index of the table is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Row `r` of the table lies in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := by rw [show cfg2.N = 10 from N_2]; omega
  obtain ⟨-, -, -, -, -, -, -, -, -, -, e51, e50⟩ := idx_facts ⟨(i 0).val / 5000, hN⟩
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    omega

/-- The table region 2 leaves is the update of the arrays it found. -/
theorem arr (c : Dev nD) :
    (dat2 (F := Ideal) V c).arrAt 5 cfg2.N
      = Spec.sageA (N := 50000) (V c main_v43) (V c main_v3) (V c main_arg8) (Spec.row1 (V c main_v44)) (V c main_arg10) :=
  (dat2 V c).arrAt_eq_of_cover 5 (G V c) (fun t _ => flushed_eq V c t) cover

end Cert.KernelIdeal.Reg2

end
-- ==== Proof.RegSage3.lean ====
/-
  The first layer's user update (the same body as the item update, on the other tables). The region works on blocks of 5000 rows; a row of the result depends only on the same
  row of the aggregate and of the node table and on the whole weights and bias; the ten blocks tile the table.
-/
import proofs.«406006_j89026082111551_3_alg».proof.Proof.Gen.KernelIdeal.Frame
import proofs.«406006_j89026082111551_3_alg».proof.Proof.Spec
import proofs.«406006_j89026082111551_3_alg».proof.Proof.LibPlainDot
import proofs.«406006_j89026082111551_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The printed record of the two products is the plain product of a 5000×128 by a 128×128 array. -/
theorem dot_eq : dot_S5000x128_S128x128_S5000x128_1_0_0_1_n_n = DotDims.plain 5000 128 128 := rfl

/-- The linear part of the update on a block of rows: `a · wl + bl + x · wr`. -/
def outBlk (a x : Vec Ideal S5000x128 .f32) (wl wr : Vec Ideal S128x128 .f32) (bl : Vec Ideal S1x128 .f32) :
    FVec Ideal S5000x128 .f32 :=
  addf
    (addf
      (matmul dot_S5000x128_S128x128_S5000x128_1_0_0_1_n_n none
        (truncf .bf16 (shapeCast S5000x128 a shapeCasts_S5000x128_S5000x128) bitsLt_bf16_f32)
        (truncf .bf16 wl bitsLt_bf16_f32) (constant (F := Ideal) S5000x128 .f32 0x00000000#32))
      (broadcastTo S5000x128 (shapeCast S1x128 bl shapeCasts_S1x128_S1x128) broadcasts_S1x128_S5000x128))
    (matmul dot_S5000x128_S128x128_S5000x128_1_0_0_1_n_n none
      (truncf .bf16 (shapeCast S5000x128 x shapeCasts_S5000x128_S5000x128) bitsLt_bf16_f32)
      (truncf .bf16 wr bitsLt_bf16_f32) (constant (F := Ideal) S5000x128 .f32 0x00000000#32))

/-- Entry (p, n) of the linear part is the row formula of row p. -/
theorem outBlk_apply (a x : Vec Ideal S5000x128 .f32) (wl wr : Vec Ideal S128x128 .f32) (bl : Vec Ideal S1x128 .f32)
    (p : Fin 5000) (n : Fin 128) :
    outBlk a x wl wr bl (ix2 p n) = Spec.sageOut (Spec.mat a p) (Spec.mat x p) (Spec.mat wl) (Spec.mat wr) (Spec.row1 bl) n := by
  unfold outBlk Spec.sageOut
  rw [addf_apply, addf_apply, dot_eq, Cert.Lib.PlainDot.matmul_plain_zero_apply,
    Cert.Lib.PlainDot.matmul_plain_zero_apply, broadcastTo_1b_ab_apply, shapeCast_self, shapeCast_self, shapeCast_self]
  rfl

/-- The sum of the squares of row p of the linear part. -/
theorem sumsq_apply (a x : Vec Ideal S5000x128 .f32) (wl wr : Vec Ideal S128x128 .f32) (bl : Vec Ideal S1x128 .f32)
    (p : Fin 5000) :
    multiReduction (F := Ideal) .add [1] S5000 (mulf (outBlk a x wl wr bl) (outBlk a x wl wr bl)) 0x00000000#32
        reduces_S5000x128_S5000 (.inl rfl) rfl (ix1 p)
      = ∑ n : Fin 128, Spec.sageOut (Spec.mat a p) (Spec.mat x p) (Spec.mat wl) (Spec.mat wr) (Spec.row1 bl) n
          * Spec.sageOut (Spec.mat a p) (Spec.mat x p) (Spec.mat wl) (Spec.mat wr) (Spec.row1 bl) n :=
  (Cert.RowOps.laneSum_apply _ reduces_S5000x128_S5000 (.inl rfl) rfl p).trans
    (Finset.sum_congr rfl fun n _ => by rw [mulf_apply, outBlk_apply])

/-- The payload the region's body stores is, entry by entry, the update's row formula. -/
theorem pay_apply (a x : Vec Ideal S5000x128 .f32) (wl wr : Vec Ideal S128x128 .f32) (bl : Vec Ideal S1x128 .f32)
    (p : Fin 5000) (q : Fin 128) :
    k3_pay1 (F := Ideal) a x wl wr bl (ix2 p q)
      = Spec.sageRow (Spec.mat a p) (Spec.mat x p) (Spec.mat wl) (Spec.mat wr) (Spec.row1 bl) q := by
  show addf (maximumf (divf (outBlk a x wl wr bl)
        (broadcastTo S5000x128
          (maximumf
            (sqrt (shapeCast S5000x1
              (multiReduction (F := Ideal) .add [1] S5000 (mulf (outBlk a x wl wr bl) (outBlk a x wl wr bl)) 0x00000000#32
                reduces_S5000x128_S5000 (.inl rfl) rfl) shapeCasts_S5000_S5000x1))
            (broadcast S5000x1 (Scalar.ofBits (F := Ideal) .f32 0x2B8CBCCC#32)))
          broadcasts_S5000x1_S5000x128))
      (broadcast S5000x128 (Scalar.ofBits (F := Ideal) .f32 0x00000000#32)))
    (shapeCast S5000x128 x shapeCasts_S5000x128_S5000x128) (ix2 p q) = _
  rw [addf_apply, maximumf_apply, divf_apply, broadcast_apply, outBlk_apply,
    Cert.RowOps.broadcastTo_a1_ab_apply, maximumf_apply, broadcast_apply,
    shapeCast_self x shapeCasts_S5000x128_S5000x128]
  show max (Ideal.div _ (max (Ideal.sqrt (shapeCast S5000x1 _ shapeCasts_S5000_S5000x1 (ix2 p (0 : Fin 1)))) _)) _ + _ = _
  rw [Cert.RowOps.shapeCast_a_a1_apply]
  unfold Spec.sageRow
  refine congrArg₂ (· + ·) (congrArg₂ max (congrArg (Ideal.div _) (congrArg (fun z => max (Ideal.sqrt z) Spec.eps) ?_))
    Ideal.ofBits_zero_f32) rfl
  exact sumsq_apply a x wl wr bl p

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The whole table as one function of the arrays the region finds. -/
abbrev G (c : Dev nD) : S50000x128.Idx → EReal :=
  Spec.sageA (N := 50000) (V c main_v59) (V c main_v1) (V c main_arg11) (Spec.row1 (V c main_v60)) (V c main_arg13)

/-- The printed index maps, decided over the grid: the aggregate's and the node table's blocks move with the result's,
    the weights and the bias are whole, and the result's block index is the point itself. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

set_option maxHeartbeats 2000000 in
/-- What point `t` writes back is block `t` of the update of the arrays the region found. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  obtain ⟨e00, e01, e10, e11, e20, e21, e30, e31, e40, e41, e51, e50⟩ := idx_facts t
  show k3_pay1 (iblk3 V c 0 t) (iblk3 V c 1 t) (iblk3 V c 2 t) (iblk3 V c 4 t) (iblk3 V c 3 t) (ix2 p q)
    = G V c (((cfg3.win 5).blk t).view.emb (ix2 p q))
  refine (pay_apply (iblk3 V c 0 t) (iblk3 V c 1 t) (iblk3 V c 2 t) (iblk3 V c 4 t) (iblk3 V c 3 t) p q).trans ?_
  show Spec.sageRow _ _ _ _ _ q
    = Spec.sageRow (Spec.mat (V c main_v59) ((((cfg3.win 5).blk t).view.emb (ix2 p q)) 0))
        (Spec.mat (V c main_v1) ((((cfg3.win 5).blk t).view.emb (ix2 p q)) 0))
        (Spec.mat (V c main_arg11)) (Spec.mat (V c main_arg13)) (Spec.row1 (V c main_v60))
        ((((cfg3.win 5).blk t).view.emb (ix2 p q)) 1)
  have hq : (((cfg3.win 5).blk t).view.emb (ix2 p q)) 1 = q :=
    Fin.ext (by show win3_5.index t (1 : Fin 2) * 128 + 1 * q.val = q.val; omega)
  have h0 : Spec.mat (iblk3 V c 0 t) p
      = Spec.mat (V c main_v59) ((((cfg3.win 5).blk t).view.emb (ix2 p q)) 0) := by
    funext k
    show V c main_v59 (((cfg3.win 0).blk t).view.emb (ix2 p k)) = V c main_v59 (ix2 _ k)
    refine congrArg _ (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * k.val = k.val; omega
  have h1 : Spec.mat (iblk3 V c 1 t) p
      = Spec.mat (V c main_v1) ((((cfg3.win 5).blk t).view.emb (ix2 p q)) 0) := by
    funext k
    show V c main_v1 (((cfg3.win 1).blk t).view.emb (ix2 p k)) = V c main_v1 (ix2 _ k)
    refine congrArg _ (funext fun a => Fin.ext ?_)
    match a with
    | ⟨0, _⟩ => show win3_1.index t (0 : Fin 2) * 5000 + 1 * p.val = win3_5.index t (0 : Fin 2) * 5000 + 1 * p.val; omega
    | ⟨1, _⟩ => show win3_1.index t (1 : Fin 2) * 128 + 1 * k.val = k.val; omega
  have h2 : Spec.mat (iblk3 V c 2 t) = Spec.mat (V c main_arg11) := by
    funext k n
    show V c main_arg11 (((cfg3.win 2).blk t).view.emb (ix2 k n)) = V c main_arg11 (ix2 k n)
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * n.val = n.val; omega
  have h4 : Spec.mat (iblk3 V c 4 t) = Spec.mat (V c main_arg13) := by
    funext k n
    show V c main_arg13 (((cfg3.win 4).blk t).view.emb (ix2 k n)) = V c main_arg13 (ix2 k n)
    refine congrArg _ (funext fun a => Fin.ext ?_)
    match a with
    | ⟨0, _⟩ => show win3_4.index t (0 : Fin 2) * 128 + 1 * k.val = k.val; omega
    | ⟨1, _⟩ => show win3_4.index t (1 : Fin 2) * 128 + 1 * n.val = n.val; omega
  have h3 : Spec.row1 (iblk3 V c 3 t) = Spec.row1 (V c main_v60) := by
    funext n
    show V c main_v60 (((cfg3.win 3).blk t).view.emb (ix2 (0 : Fin 1) n)) = V c main_v60 (ix2 (0 : Fin 1) n)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * n.val = n.val; omega
  rw [h0, h1, h2, h4, h3, hq]

/-- An index of the table is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v61).slice (win3_5.rect t)).set ↔ _
  rw [View.set_slice_whole, Rect.mem_set_unit]
  exact Iff.rfl

/-- Row `r` of the table lies in the block of point `r / 5000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : (i 0).val / 5000 < cfg3.N := by rw [show cfg3.N = 10 from N_3]; omega
  obtain ⟨-, -, -, -, -, -, -, -, -, -, e51, e50⟩ := idx_facts ⟨(i 0).val / 5000, hN⟩
  refine ⟨⟨(i 0).val / 5000, hN⟩, flush3_5 _, ?_⟩
  rw [mem_blk]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, hN⟩ (1 : Fin 2) * 128 ≤ (i 1).val
      ∧ (i 1).val < win3_5.index ⟨(i 0).val / 5000, hN⟩ (1 : Fin 2) * 128 + 128
    omega

/-- The table region 3 leaves is the update of the arrays it found. -/
theorem arr (c : Dev nD) :
    (dat3 (F := Ideal) V c).arrAt 5 cfg3.N
      = Spec.sageA (N := 50000) (V c main_v59) (V c main_v1) (V c main_arg11) (Spec.row1 (V c main_v60)) (V c main_arg13) :=
  (dat3 V c).arrAt_eq_of_cover 5 (G V c) (fun t _ => flushed_eq V c t) cover

end Cert.KernelIdeal.Reg3

end
-- ==== Proof.RegHead4.lean ====
/-
  The second layer's user update fused with the head: on each block of 5000 rows the body updates the rows and applies
  the two-layer head to them; the ten blocks tile the 50000-row result.

  The argument has three parts. First the body's value at a block-local index (p, j): the three products read as sums
  over the contracted coordinate, the bias rows and the norm column read at their entries, so that the value is the
  head's row formula of the updated row p. Then what one grid point writes back: the moving windows' blocks are rows
  5000·t … 5000·t + 4999 of their tables and the weight windows are whole, so the block written is the block of the
  head of the update of the tables. Last, every row of the 50000-row result lies in the block of the point
  (row / 5000), so the result is that function everywhere.
-/
import proofs.«406006_j89026082111551_3_alg».proof.Proof.Gen.KernelIdeal.Frame
import proofs.«406006_j89026082111551_3_alg».proof.Proof.Spec
import proofs.«406006_j89026082111551_3_alg».proof.Proof.LibPlainDot
import proofs.«406006_j89026082111551_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's value at an index -/

section Payload

/-- The three products are plain products: rows of the left operand against columns of the right. -/
theorem dotUpd_eq : dot_S5000x128_S128x128_S5000x128_1_0_0_1_n_n = DotDims.plain 5000 128 128 := rfl
theorem dotHid_eq : dot_S5000x128_S128x64_S5000x64_1_0_0_1_n_n = DotDims.plain 5000 128 64 := rfl
theorem dotOut_eq : dot_S5000x64_S64x8_S5000x8_1_0_0_1_n_n = DotDims.plain 5000 64 8 := rfl

/-- A plain product into the zero accumulator whose operands pass through a change of format (the identity over the
    extended reals), at entry (p, q): the sum over c of A[p, c] · W[c, q]. -/
theorem prod_apply {m k n : ℕ} (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (hb : FTy.bits .bf16 < FTy.bits .f32)
    (p : Fin m) (q : Fin n) :
    matmul D none (truncf .bf16 A hb) (truncf .bf16 W hb) (constant (F := Ideal) ⟨2, ![m, n]⟩ .f32 0x00000000#32) (ix2 p q)
      = ∑ c : Fin k, A (ix2 p c) * W (ix2 c q) := by
  subst hD
  exact (Cert.Lib.PlainDot.matmul_plain_zero_apply none _ _ p q).trans (Finset.sum_congr rfl fun c _ => rfl)

variable (a x : FVec Ideal S5000x128 .f32) (wl wr : FVec Ideal S128x128 .f32) (bl : FVec Ideal S1x128 .f32)
  (w1 : FVec Ideal S128x64 .f32) (b1 : FVec Ideal S1x64 .f32) (w2 : FVec Ideal S64x8 .f32) (b2 : FVec Ideal S1x8 .f32)

/-- The block of `a · wl + bl + x · wr`. -/
def outB : FVec Ideal S5000x128 .f32 :=
  addf
    (addf
      (matmul dot_S5000x128_S128x128_S5000x128_1_0_0_1_n_n none
        (truncf .bf16 (shapeCast S5000x128 a shapeCasts_S5000x128_S5000x128) bitsLt_bf16_f32) (truncf .bf16 wl bitsLt_bf16_f32)
        (constant S5000x128 .f32 0x00000000#32))
      (broadcastTo S5000x128 (shapeCast S1x128 bl shapeCasts_S1x128_S1x128) broadcasts_S1x128_S5000x128))
    (matmul dot_S5000x128_S128x128_S5000x128_1_0_0_1_n_n none
      (truncf .bf16 (shapeCast S5000x128 x shapeCasts_S5000x128_S5000x128) bitsLt_bf16_f32) (truncf .bf16 wr bitsLt_bf16_f32)
      (constant S5000x128 .f32 0x00000000#32))

/-- The clamped Euclidean norm of each row of a block, as a column. -/
def normB (o : FVec Ideal S5000x128 .f32) : FVec Ideal S5000x1 .f32 :=
  maximumf
    (sqrt (shapeCast S5000x1
      (multiReduction .add [1] S5000 (mulf o o) 0x00000000#32 reduces_S5000x128_S5000 (.inl rfl) rfl) shapeCasts_S5000_S5000x1))
    (broadcast S5000x1 (Scalar.ofBits .f32 0x2B8CBCCC#32))

/-- The block of `relu (o / max (‖o‖, ε)) + x`. -/
def updB (o : FVec Ideal S5000x128 .f32) : FVec Ideal S5000x128 .f32 :=
  addf
    (maximumf (divf o (broadcastTo S5000x128 (normB o) broadcasts_S5000x1_S5000x128))
      (broadcast S5000x128 (Scalar.ofBits .f32 0x00000000#32)))
    (shapeCast S5000x128 x shapeCasts_S5000x128_S5000x128)

/-- The block of `relu (h · w1 + b1)`. -/
def hidB (h : FVec Ideal S5000x128 .f32) : FVec Ideal S5000x64 .f32 :=
  maximumf
    (addf
      (matmul dot_S5000x128_S128x64_S5000x64_1_0_0_1_n_n none (truncf .bf16 h bitsLt_bf16_f32) (truncf .bf16 w1 bitsLt_bf16_f32)
        (constant S5000x64 .f32 0x00000000#32))
      (broadcastTo S5000x64 (shapeCast S1x64 b1 shapeCasts_S1x64_S1x64) broadcasts_S1x64_S5000x64))
    (broadcast S5000x64 (Scalar.ofBits .f32 0x00000000#32))

/-- The body's first value is the hidden layer of the updated block. -/
theorem pay2_eq : k4_pay2 a x wl wr bl w1 b1 = hidB w1 b1 (updB x (outB a x wl wr bl)) := rfl

/-- Entry (p, q) of the block of `a · wl + bl + x · wr`: the row formula of the block's row p. -/
theorem outB_apply (p : Fin 5000) (q : Fin 128) :
    outB a x wl wr bl (ix2 p q)
      = Spec.sageOut (Spec.mat a p) (Spec.mat x p) (Spec.mat wl) (Spec.mat wr) (Spec.row1 bl) q := by
  unfold outB Spec.sageOut
  rw [addf_apply, addf_apply, shapeCast_self, shapeCast_self, shapeCast_self, prod_apply _ dotUpd_eq,
    prod_apply _ dotUpd_eq, broadcastTo_1b_ab_apply]

/-- Entry p of the norm column: the root of the sum of the squares of row p, clamped below. -/
theorem normB_apply (o : FVec Ideal S5000x128 .f32) (p : Fin 5000) (u : Fin 1) :
    normB o (ix2 p u) = max (Ideal.sqrt (∑ n : Fin 128, o (ix2 p n) * o (ix2 p n))) Spec.eps := by
  unfold normB
  rw [maximumf_apply, broadcast_apply]
  show max (Ideal.sqrt (shapeCast S5000x1 _ _ (ix2 p u))) Spec.eps = _
  rw [Cert.RowOps.shapeCast_a_a1_apply]
  refine congrArg (fun z => max (Ideal.sqrt z) Spec.eps) ?_
  exact (Cert.RowOps.laneSum_apply (mulf o o) _ _ _ p).trans (Finset.sum_congr rfl fun n _ => rfl)

/-- Entry (p, q) of the updated block, from the entries of row p of `o`. -/
theorem updB_apply (o : FVec Ideal S5000x128 .f32) (p : Fin 5000) (q : Fin 128) :
    updB x o (ix2 p q)
      = max (Ideal.div (o (ix2 p q)) (max (Ideal.sqrt (∑ n : Fin 128, o (ix2 p n) * o (ix2 p n))) Spec.eps)) 0
        + x (ix2 p q) := by
  unfold updB
  rw [addf_apply, maximumf_apply, divf_apply, broadcast_apply, shapeCast_self, Cert.RowOps.broadcastTo_a1_ab_apply,
    normB_apply]
  exact congrArg (fun z => max (Ideal.div (o (ix2 p q))
    (max (Ideal.sqrt (∑ n : Fin 128, o (ix2 p n) * o (ix2 p n))) Spec.eps)) z + x (ix2 p q)) Ideal.ofBits_zero_f32

/-- Entry (p, k) of the hidden layer of a block `h`: the row formula of row p of `h`. -/
theorem hidB_apply (h : FVec Ideal S5000x128 .f32) (p : Fin 5000) (k : Fin 64) :
    hidB w1 b1 h (ix2 p k) = Spec.linRow (Spec.mat h p) (Spec.mat w1) (Spec.row1 b1) k := by
  unfold hidB Spec.linRow
  rw [maximumf_apply, addf_apply, broadcast_apply, prod_apply _ dotHid_eq, broadcastTo_1b_ab_apply, shapeCast_self]
  exact congrArg₂ max rfl Ideal.ofBits_zero_f32

/-- Entry (p, j) of the body's second value: row p of `z` against column j of `w2`, plus the bias. -/
theorem pay1_apply (z : FVec Ideal S5000x64 .f32) (p : Fin 5000) (j : Fin 8) :
    k4_pay1 (F := Ideal) z w2 b2 (ix2 p j) = (∑ k : Fin 64, z (ix2 p k) * w2 (ix2 k j)) + b2 (ix2 (0 : Fin 1) j) := by
  unfold k4_pay1
  rw [addf_apply, prod_apply _ dotOut_eq, broadcastTo_1b_ab_apply, shapeCast_self]

/-- The updated block's row p is the update's row formula of row p of the two blocks. -/
theorem upd_row (p : Fin 5000) :
    Spec.mat (updB x (outB a x wl wr bl)) p
      = Spec.sageRow (Spec.mat a p) (Spec.mat x p) (Spec.mat wl) (Spec.mat wr) (Spec.row1 bl) := by
  funext q
  show updB x (outB a x wl wr bl) (ix2 p q) = _
  rw [updB_apply, outB_apply]
  unfold Spec.sageRow
  refine congrArg (fun s => max (Ideal.div (Spec.sageOut (Spec.mat a p) (Spec.mat x p) (Spec.mat wl) (Spec.mat wr)
    (Spec.row1 bl) q) (max (Ideal.sqrt s) Spec.eps)) 0 + x (ix2 p q)) ?_
  exact Finset.sum_congr rfl fun n _ => by rw [outB_apply]

/-- THE BODY AT AN INDEX: entry (p, j) of what the body stores is the head's row formula of the updated row p. -/
theorem body_apply (p : Fin 5000) (j : Fin 8) :
    k4_pay1 (F := Ideal) (k4_pay2 (F := Ideal) a x wl wr bl w1 b1) w2 b2 (ix2 p j)
      = Spec.headRow (Spec.sageRow (Spec.mat a p) (Spec.mat x p) (Spec.mat wl) (Spec.mat wr) (Spec.row1 bl))
          (Spec.mat w1) (Spec.row1 b1) (Spec.mat w2) (Spec.row1 b2) j := by
  rw [pay1_apply, pay2_eq]
  unfold Spec.headRow
  refine congrArg (fun s => s + b2 (ix2 (0 : Fin 1) j)) ?_
  refine Finset.sum_congr rfl fun k _ => ?_
  rw [hidB_apply, upd_row]

end Payload

/-! ## What one grid point writes back -/

theorem hz : (![0, 0] : Fin 2 → Nat) = fun _ => 0 := funext fun a => by fin_cases a <;> rfl

/-- The whole table as one function of the arrays the region finds. -/
abbrev G (c : Dev nD) : S50000x8.Idx → EReal :=
  Spec.headA (N := 50000)
    (Spec.sageA (N := 50000) (V c main_v75) (V c main_v61) (V c main_arg17) (Spec.row1 (V c main_v76)) (V c main_arg19))
    (V c main_arg20) (Spec.row1 (V c main_v77)) (V c main_arg22) (Spec.row1 (V c main_v78))

/-- The printed index maps over the grid: the aggregate's rows, the node table's rows and the result's rows move
    together, block t at point t. -/
theorem idx_rows : ∀ t : Fin cfg4.N,
    win4_0.index t (0 : Fin 2) = win4_9.index t (0 : Fin 2) ∧ win4_0.index t (1 : Fin 2) = 0
    ∧ win4_1.index t (0 : Fin 2) = win4_9.index t (0 : Fin 2) ∧ win4_1.index t (1 : Fin 2) = 0
    ∧ win4_9.index t (1 : Fin 2) = 0 ∧ win4_9.index t (0 : Fin 2) = t.val :=
  (by decide +kernel : ∀ t : Fin grid4.N, _)

/-- The weights and the bias rows stay: their one block is the whole array at every point. -/
theorem idx_whole : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row p of the aggregate's block at point t is the aggregate's row under row p of the result's block. -/
theorem agg_row (c : Dev nD) (t : Fin cfg4.N) (p : Fin 5000) (q : Fin 8) :
    Spec.mat (iblk4 V c 0 t) p = Spec.mat (V c main_v75) ((((cfg4.win 9).blk t).view.emb (ix2 p q)) 0) := by
  obtain ⟨e00, e01, -, -, -, -⟩ := idx_rows t
  funext k
  show V c main_v75 (((cfg4.win 0).blk t).view.emb (ix2 p k)) = V c main_v75 (ix2 _ k)
  refine congrArg _ (funext fun a => Fin.ext ?_)
  match a with
  | ⟨0, _⟩ => show win4_0.index t (0 : Fin 2) * 5000 + 1 * p.val = win4_9.index t (0 : Fin 2) * 5000 + 1 * p.val; omega
  | ⟨1, _⟩ => show win4_0.index t (1 : Fin 2) * 128 + 1 * k.val = k.val; omega

/-- Row p of the node table's block at point t is the table's row under row p of the result's block. -/
theorem node_row (c : Dev nD) (t : Fin cfg4.N) (p : Fin 5000) (q : Fin 8) :
    Spec.mat (iblk4 V c 1 t) p = Spec.mat (V c main_v61) ((((cfg4.win 9).blk t).view.emb (ix2 p q)) 0) := by
  obtain ⟨-, -, e10, e11, -, -⟩ := idx_rows t
  funext k
  show V c main_v61 (((cfg4.win 1).blk t).view.emb (ix2 p k)) = V c main_v61 (ix2 _ k)
  refine congrArg _ (funext fun a => Fin.ext ?_)
  match a with
  | ⟨0, _⟩ => show win4_1.index t (0 : Fin 2) * 5000 + 1 * p.val = win4_9.index t (0 : Fin 2) * 5000 + 1 * p.val; omega
  | ⟨1, _⟩ => show win4_1.index t (1 : Fin 2) * 128 + 1 * k.val = k.val; omega

/-- The column of an entry of the result's block is its column in the block. -/
theorem out_col (t : Fin cfg4.N) (p : Fin 5000) (q : Fin 8) :
    (((cfg4.win 9).blk t).view.emb (ix2 p q)) 1 = q := by
  obtain ⟨-, -, -, -, e91, -⟩ := idx_rows t
  exact Fin.ext (by show win4_9.index t (1 : Fin 2) * 8 + 1 * q.val = q.val; omega)

/-- The weight windows' blocks are the whole weights. -/
theorem wl_whole (c : Dev nD) (t : Fin cfg4.N) : Spec.mat (iblk4 V c 2 t) = Spec.mat (V c main_arg17) := by
  obtain ⟨e0, e1, -⟩ := idx_whole t
  funext k n
  show V c main_arg17 (((cfg4.win 2).blk t).view.emb (ix2 k n)) = V c main_arg17 (ix2 k n)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * n.val = n.val; omega

theorem bl_whole (c : Dev nD) (t : Fin cfg4.N) : Spec.row1 (iblk4 V c 3 t) = Spec.row1 (V c main_v76) := by
  obtain ⟨-, -, e0, e1, -⟩ := idx_whole t
  funext n
  show V c main_v76 (((cfg4.win 3).blk t).view.emb (ix2 (0 : Fin 1) n)) = V c main_v76 (ix2 (0 : Fin 1) n)
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * n.val = n.val; omega

theorem wr_whole (c : Dev nD) (t : Fin cfg4.N) : Spec.mat (iblk4 V c 4 t) = Spec.mat (V c main_arg19) := by
  obtain ⟨-, -, -, -, e0, e1, -⟩ := idx_whole t
  funext k n
  show V c main_arg19 (((cfg4.win 4).blk t).view.emb (ix2 k n)) = V c main_arg19 (ix2 k n)
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * n.val = n.val; omega

theorem w1_whole (c : Dev nD) (t : Fin cfg4.N) : Spec.mat (iblk4 V c 5 t) = Spec.mat (V c main_arg20) := by
  obtain ⟨-, -, -, -, -, -, e0, e1, -⟩ := idx_whole t
  funext k n
  show V c main_arg20 (((cfg4.win 5).blk t).view.emb (ix2 k n)) = V c main_arg20 (ix2 k n)
  refine congrArg _ (funext fun a => Fin.ext ?_)
  match a with
  | ⟨0, _⟩ => show win4_5.index t (0 : Fin 2) * 128 + 1 * k.val = k.val; omega
  | ⟨1, _⟩ => show win4_5.index t (1 : Fin 2) * 64 + 1 * n.val = n.val; omega

theorem b1_whole (c : Dev nD) (t : Fin cfg4.N) : Spec.row1 (iblk4 V c 6 t) = Spec.row1 (V c main_v77) := by
  obtain ⟨-, -, -, -, -, -, -, -, e0, e1, -⟩ := idx_whole t
  funext n
  show V c main_v77 (((cfg4.win 6).blk t).view.emb (ix2 (0 : Fin 1) n)) = V c main_v77 (ix2 (0 : Fin 1) n)
  refine congrArg _ (funext fun a => Fin.ext ?_)
  match a with
  | ⟨0, _⟩ => show win4_6.index t (0 : Fin 2) * 1 + 1 * 0 = 0; omega
  | ⟨1, _⟩ => show win4_6.index t (1 : Fin 2) * 64 + 1 * n.val = n.val; omega

theorem w2_whole (c : Dev nD) (t : Fin cfg4.N) : Spec.mat (iblk4 V c 7 t) = Spec.mat (V c main_arg22) := by
  obtain ⟨-, -, -, -, -, -, -, -, -, -, e0, e1, -⟩ := idx_whole t
  funext k n
  show V c main_arg22 (((cfg4.win 7).blk t).view.emb (ix2 k n)) = V c main_arg22 (ix2 k n)
  refine congrArg _ (funext fun a => Fin.ext ?_)
  match a with
  | ⟨0, _⟩ => show win4_7.index t (0 : Fin 2) * 64 + 1 * k.val = k.val; omega
  | ⟨1, _⟩ => show win4_7.index t (1 : Fin 2) * 8 + 1 * n.val = n.val; omega

theorem b2_whole (c : Dev nD) (t : Fin cfg4.N) : Spec.row1 (iblk4 V c 8 t) = Spec.row1 (V c main_v78) := by
  obtain ⟨-, -, -, -, -, -, -, -, -, -, -, -, e0, e1⟩ := idx_whole t
  funext n
  show V c main_v78 (((cfg4.win 8).blk t).view.emb (ix2 (0 : Fin 1) n)) = V c main_v78 (ix2 (0 : Fin 1) n)
  refine congrArg _ (funext fun a => Fin.ext ?_)
  match a with
  | ⟨0, _⟩ => show win4_8.index t (0 : Fin 2) * 1 + 1 * 0 = 0; omega
  | ⟨1, _⟩ => show win4_8.index t (1 : Fin 2) * 8 + 1 * n.val = n.val; omega

/-- WHAT POINT `t` WRITES BACK is block `t` of the head of the update of the tables the region found. -/
theorem flushed_eq (c : Dev nD) (t : Fin cfg4.N) :
    (dat4 (F := Ideal) V c).flushed 9 t = ((cfg4.win 9).blk t).view.read (Elt Ideal) (G V c) := by
  show (cfg4.win 9).cut (grid4.coords t) ((dat4 V c).after 9 t) = _
  rw [after4_9]
  unfold out4_9
  rw [View.canon_unit_zero hz]
  simp only [View.ld_unit_zero (S := S5000x128) hz, View.ld_unit_zero (S := S128x128) hz,
    View.ld_unit_zero (S := S1x128) hz, View.ld_unit_zero (S := S128x64) hz, View.ld_unit_zero (S := S1x64) hz,
    View.ld_unit_zero (S := S64x8) hz, View.ld_unit_zero (S := S1x8) hz]
  funext j
  obtain ⟨p, q, rfl⟩ : ∃ (p : Fin 5000) (q : Fin 8), j = (ix2 p q : S5000x8.Idx) := ⟨j 0, j 1, eq_ix2 j⟩
  show k4_pay1 (k4_pay2 (iblk4 V c 0 t) (iblk4 V c 1 t) (iblk4 V c 2 t) (iblk4 V c 4 t) (iblk4 V c 3 t) (iblk4 V c 5 t)
      (iblk4 V c 6 t)) (iblk4 V c 7 t) (iblk4 V c 8 t) (ix2 p q) = G V c (((cfg4.win 9).blk t).view.emb (ix2 p q))
  refine (body_apply (iblk4 V c 0 t) (iblk4 V c 1 t) (iblk4 V c 2 t) (iblk4 V c 4 t) (iblk4 V c 3 t) (iblk4 V c 5 t)
    (iblk4 V c 6 t) (iblk4 V c 7 t) (iblk4 V c 8 t) p q).trans ?_
  show Spec.headRow (Spec.sageRow _ _ _ _ _) _ _ _ _ q
    = Spec.headRow
        (Spec.sageRow (Spec.mat (V c main_v75) ((((cfg4.win 9).blk t).view.emb (ix2 p q)) 0))
          (Spec.mat (V c main_v61) ((((cfg4.win 9).blk t).view.emb (ix2 p q)) 0))
          (Spec.mat (V c main_arg17)) (Spec.mat (V c main_arg19)) (Spec.row1 (V c main_v76)))
        (Spec.mat (V c main_arg20)) (Spec.row1 (V c main_v77)) (Spec.mat (V c main_arg22)) (Spec.row1 (V c main_v78))
        ((((cfg4.win 9).blk t).view.emb (ix2 p q)) 1)
  rw [agg_row V c t p q, node_row V c t p q, wl_whole V c t, bl_whole V c t, wr_whole V c t, w1_whole V c t,
    b1_whole V c t, w2_whole V c t, b2_whole V c t, out_col t p q]

/-! ## The blocks tile the table -/

/-- An index of the table is in point `t`'s block iff each coordinate is in the block's range on its axis. -/
theorem mem_blk (t : Fin cfg4.N) (i : S50000x8.Idx) :
    i ∈ ((cfg4.win 9).blk t).view.set ↔ ∀ a : Fin 2, win4_9.index t a * S5000x8.size a ≤ (i a).val
      ∧ (i a).val < win4_9.index t a * S5000x8.size a + S5000x8.size a := by
  show i ∈ ((View.whole main_v79).slice (win4_9.rect t)).set ↔ _
  rw [View.set_slice_whole, Rect.mem_set_unit]
  exact Iff.rfl

/-- Row `r` of the table lies in the block of point `r / 5000`. -/
theorem cover (i : S50000x8.Idx) :
    ∃ t : Fin cfg4.N, (cfg4.win 9).flush t = true ∧ i ∈ ((cfg4.win 9).blk t).view.set := by
  have hi0 : (i 0).val < 50000 := (i 0).isLt
  have hi1 : (i 1).val < 8 := (i 1).isLt
  have hN : (i 0).val / 5000 < cfg4.N := by rw [show cfg4.N = 10 from N_4]; omega
  obtain ⟨-, -, -, -, e91, e90⟩ := idx_rows ⟨(i 0).val / 5000, hN⟩
  refine ⟨⟨(i 0).val / 5000, hN⟩, flush4_9 _, ?_⟩
  rw [mem_blk]
  intro a
  match a with
  | ⟨0, _⟩ =>
    show win4_9.index ⟨(i 0).val / 5000, hN⟩ (0 : Fin 2) * 5000 ≤ (i 0).val
      ∧ (i 0).val < win4_9.index ⟨(i 0).val / 5000, hN⟩ (0 : Fin 2) * 5000 + 5000
    rw [e90]
    show (i 0).val / 5000 * 5000 ≤ (i 0).val ∧ (i 0).val < (i 0).val / 5000 * 5000 + 5000
    omega
  | ⟨1, _⟩ =>
    show win4_9.index ⟨(i 0).val / 5000, hN⟩ (1 : Fin 2) * 8 ≤ (i 1).val
      ∧ (i 1).val < win4_9.index ⟨(i 0).val / 5000, hN⟩ (1 : Fin 2) * 8 + 8
    omega

/-- The table region 4 leaves is the head of the update of the arrays it found. -/
theorem arr (c : Dev nD) :
    (dat4 (F := Ideal) V c).arrAt 9 cfg4.N
      = Spec.headA (N := 50000)
          (Spec.sageA (N := 50000) (V c main_v75) (V c main_v61) (V c main_arg17) (Spec.row1 (V c main_v76)) (V c main_arg19))
          (V c main_arg20) (Spec.row1 (V c main_v77)) (V c main_arg22) (Spec.row1 (V c main_v78)) :=
  (dat4 V c).arrAt_eq_of_cover 9 (G V c) (fun t _ => flushed_eq V c t) cover

end Cert.KernelIdeal.Reg4

end
-- ==== Proof.HostKeeps.lean ====
/-
  Bookkeeping of the kernel program's buffers between its five regions. Each stretch of host operations writes its own
  result buffers and nothing else; each region changes its output table and nothing else (an input window's array ends
  as it was found, a buffer that is no window's array is not touched). So a buffer keeps its contents across every
  stretch that does not write it and every region whose output it is not, and the arguments of the program, which
  nothing writes, hold their launch contents at every boundary.
-/
import proofs.«406006_j89026082111551_3_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg) (c : Dev nD)

/-! ## What each stretch of host operations writes, and what every region leaves alone -/

/-- The buffers host stretch 0 writes. -/
abbrev wr0 : List (Ref sig .tc) := [main_v0]

theorem hW0 : (hostOps0 : List (HloOp τ sig (Elt Ideal))).Forall fun op =>
    op.writes ⊆ (wr0.map (Proc.devRef (τ := τ) .tc)).toFinset := by
  simp only [hostOps0, List.Forall, StableHlo.reshape_writes, Finset.singleton_subset_iff, List.mem_toFinset, List.mem_map]
  exact ⟨_, by decide, rfl⟩

/-- A buffer host stretch 0 does not write keeps its contents. -/
theorem keepH0 (b : Ref sig .tc) (hb : b ∉ wr0) :
    W1 m ρ c (Proc.devRef .tc b) = W0 m ρ c (Proc.devRef .tc b) :=
  StableHlo.after_of_writes_sub hostOps0 (W0 m ρ c) hW0 hb

/-- Region 0 changes its output table only: an input window's array ends as it was found, and a buffer that is
    no window's array is not touched. -/
theorem keepR0 (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      fin_cases w <;> first | rfl | exact absurd rfl hb
    exact (W2_arr m ρ c w).trans (((dat0 (V1 m ρ) c).arrAt_in w hin _).trans (A_eq0 (V1 m ρ) c w))
  · exact W2_of_ne m ρ c b fun w e => h ⟨w, e⟩

/-- The buffers host stretch 1 writes. -/
abbrev wr1 : List (Ref sig .tc) := [main_v2]

theorem hW1 : (hostOps1 : List (HloOp τ sig (Elt Ideal))).Forall fun op =>
    op.writes ⊆ (wr1.map (Proc.devRef (τ := τ) .tc)).toFinset := by
  simp only [hostOps1, List.Forall, StableHlo.reshape_writes, Finset.singleton_subset_iff, List.mem_toFinset, List.mem_map]
  exact ⟨_, by decide, rfl⟩

/-- A buffer host stretch 1 does not write keeps its contents. -/
theorem keepH1 (b : Ref sig .tc) (hb : b ∉ wr1) :
    W3 m ρ c (Proc.devRef .tc b) = W2 m ρ c (Proc.devRef .tc b) :=
  StableHlo.after_of_writes_sub hostOps1 (W2 m ρ c) hW1 hb

/-- Region 1 changes its output table only: an input window's array ends as it was found, and a buffer that is
    no window's array is not touched. -/
theorem keepR1 (b : Ref sig .tc) (hb : b ≠ main_v3) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      fin_cases w <;> first | rfl | exact absurd rfl hb
    exact (W4_arr m ρ c w).trans (((dat1 (V3 m ρ) c).arrAt_in w hin _).trans (A_eq1 (V3 m ρ) c w))
  · exact W4_of_ne m ρ c b fun w e => h ⟨w, e⟩

/-- The buffers host stretch 2 writes. -/
abbrev wr2 : List (Ref sig .tc) := [main_v4, main_v5, main_v6, main_v7, main_v8, main_v9, main_v10, main_v11, main_cst, main_v12, main_cst_0, main_v13, main_v14, main_v15, main_cst_1, main_v16, main_v17, main_cst_2, main_v18, main_v19, main_v20, main_cst_3, main_v21, main_cst_4, main_v22, main_v23, main_v24, main_cst_5, main_v25, main_v26, main_cst_6, main_v27, main_v28, main_v29, main_v30, main_c, main_v31, main_v32, main_c_7, main_v33, main_v34, main_v35, main_v36, main_v37, main_v38, main_cst_8, main_v39, main_v40, main_v41, main_v42, main_v43, main_v44]

theorem hW2 : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals (refine ⟨_, ?_, rfl⟩; decide)

/-- A buffer host stretch 2 does not write keeps its contents. -/
theorem keepH2 (b : Ref sig .tc) (hb : b ∉ wr2) :
    W5 m ρ c (Proc.devRef .tc b) = W4 m ρ c (Proc.devRef .tc b) :=
  StableHlo.after_of_writes_sub hostOps2 (W4 m ρ c) hW2 hb

/-- Region 2 changes its output table only: an input window's array ends as it was found, and a buffer that is
    no window's array is not touched. -/
theorem keepR2 (b : Ref sig .tc) (hb : b ≠ main_v45) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      fin_cases w <;> first | rfl | exact absurd rfl hb
    exact (W6_arr m ρ c w).trans (((dat2 (V5 m ρ) c).arrAt_in w hin _).trans (A_eq2 (V5 m ρ) c w))
  · exact W6_of_ne m ρ c b fun w e => h ⟨w, e⟩

/-- The buffers host stretch 3 writes. -/
abbrev wr3 : List (Ref sig .tc) := [main_v46, main_c_9, main_v47, main_v48, main_c_10, main_v49, main_v50, main_v51, main_v52, main_v53, main_v54, main_cst_11, main_v55, main_v56, main_v57, main_v58, main_v59, main_v60]

theorem hW3 : (hostOps3 : List (HloOp τ sig (Elt Ideal))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals (refine ⟨_, ?_, rfl⟩; decide)

/-- A buffer host stretch 3 does not write keeps its contents. -/
theorem keepH3 (b : Ref sig .tc) (hb : b ∉ wr3) :
    W7 m ρ c (Proc.devRef .tc b) = W6 m ρ c (Proc.devRef .tc b) :=
  StableHlo.after_of_writes_sub hostOps3 (W6 m ρ c) hW3 hb

/-- Region 3 changes its output table only: an input window's array ends as it was found, and a buffer that is
    no window's array is not touched. -/
theorem keepR3 (b : Ref sig .tc) (hb : b ≠ main_v61) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      fin_cases w <;> first | rfl | exact absurd rfl hb
    exact (W8_arr m ρ c w).trans (((dat3 (V7 m ρ) c).arrAt_in w hin _).trans (A_eq3 (V7 m ρ) c w))
  · exact W8_of_ne m ρ c b fun w e => h ⟨w, e⟩

/-- The buffers host stretch 4 writes. -/
abbrev wr4 : List (Ref sig .tc) := [main_v62, main_c_12, main_v63, main_v64, main_c_13, main_v65, main_v66, main_v67, main_v68, main_v69, main_v70, main_cst_14, main_v71, main_v72, main_v73, main_v74, main_v75, main_v76, main_v77, main_v78]

theorem hW4 : (hostOps4 : List (HloOp τ sig (Elt Ideal))).Forall fun op =>
    op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  repeat' apply And.intro
  all_goals (refine ⟨_, ?_, rfl⟩; decide)

/-- A buffer host stretch 4 does not write keeps its contents. -/
theorem keepH4 (b : Ref sig .tc) (hb : b ∉ wr4) :
    W9 m ρ c (Proc.devRef .tc b) = W8 m ρ c (Proc.devRef .tc b) :=
  StableHlo.after_of_writes_sub hostOps4 (W8 m ρ c) hW4 hb

/-- Region 4 changes its output table only: an input window's array ends as it was found, and a buffer that is
    no window's array is not touched. -/
theorem keepR4 (b : Ref sig .tc) (hb : b ≠ main_v79) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      fin_cases w <;> first | rfl | exact absurd rfl hb
    exact (W10_arr m ρ c w).trans (((dat4 (V9 m ρ) c).arrAt_in w hin _).trans (A_eq4 (V9 m ρ) c w))
  · exact W10_of_ne m ρ c b fun w e => h ⟨w, e⟩

/-! ## The arguments are never written -/

/-- The arguments of @main. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem args_free : ∀ b ∈ args, b ∉ wr0 ∧ b ≠ main_v1 ∧ b ∉ wr1 ∧ b ≠ main_v3 ∧ b ∉ wr2 ∧ b ≠ main_v45 ∧ b ∉ wr3
    ∧ b ≠ main_v61 ∧ b ∉ wr4 := by decide

theorem a0 (b : Ref sig .tc) : W0 m ρ c (Proc.devRef .tc b) = m ((c.tc : Thread nD τ).loc b) := rfl
theorem a1 (b : Ref sig .tc) (hb : b ∈ args) : W1 m ρ c (Proc.devRef .tc b) = m ((c.tc : Thread nD τ).loc b) :=
  (keepH0 m ρ c b (args_free b hb).1).trans (a0 m ρ c b)
theorem a2 (b : Ref sig .tc) (hb : b ∈ args) : W2 m ρ c (Proc.devRef .tc b) = m ((c.tc : Thread nD τ).loc b) :=
  (keepR0 m ρ c b (args_free b hb).2.1).trans (a1 m ρ c b hb)
theorem a3 (b : Ref sig .tc) (hb : b ∈ args) : W3 m ρ c (Proc.devRef .tc b) = m ((c.tc : Thread nD τ).loc b) :=
  (keepH1 m ρ c b (args_free b hb).2.2.1).trans (a2 m ρ c b hb)
theorem a4 (b : Ref sig .tc) (hb : b ∈ args) : W4 m ρ c (Proc.devRef .tc b) = m ((c.tc : Thread nD τ).loc b) :=
  (keepR1 m ρ c b (args_free b hb).2.2.2.1).trans (a3 m ρ c b hb)
theorem a5 (b : Ref sig .tc) (hb : b ∈ args) : W5 m ρ c (Proc.devRef .tc b) = m ((c.tc : Thread nD τ).loc b) :=
  (keepH2 m ρ c b (args_free b hb).2.2.2.2.1).trans (a4 m ρ c b hb)
theorem a6 (b : Ref sig .tc) (hb : b ∈ args) : W6 m ρ c (Proc.devRef .tc b) = m ((c.tc : Thread nD τ).loc b) :=
  (keepR2 m ρ c b (args_free b hb).2.2.2.2.2.1).trans (a5 m ρ c b hb)
theorem a7 (b : Ref sig .tc) (hb : b ∈ args) : W7 m ρ c (Proc.devRef .tc b) = m ((c.tc : Thread nD τ).loc b) :=
  (keepH3 m ρ c b (args_free b hb).2.2.2.2.2.2.1).trans (a6 m ρ c b hb)
theorem a8 (b : Ref sig .tc) (hb : b ∈ args) : W8 m ρ c (Proc.devRef .tc b) = m ((c.tc : Thread nD τ).loc b) :=
  (keepR3 m ρ c b (args_free b hb).2.2.2.2.2.2.2.1).trans (a7 m ρ c b hb)
theorem a9 (b : Ref sig .tc) (hb : b ∈ args) : W9 m ρ c (Proc.devRef .tc b) = m ((c.tc : Thread nD τ).loc b) :=
  (keepH4 m ρ c b (args_free b hb).2.2.2.2.2.2.2.2).trans (a8 m ρ c b hb)

end Cert.KernelIdeal.Host

end
-- ==== Proof.KHost.lean ====
/-
  The kernel program's result, followed through its five regions and the host operations between them.

  At each boundary the buffers that matter hold: the encoded tables (from the two encoder regions), the two updated
  tables of the first layer, and, computed on the host before each update, the mean of the source table over the
  incoming edges — there as the sums times the reciprocal of the clamped counts, which is the quotient by the clamped
  counts (the specification's one law), the change to bf16 and back around the gather being the identity over the
  extended reals. Each region's table is the specification's row-wise function of the tables the region finds (the
  five hypotheses below, proved in the regions' own modules), so the last region leaves the specification's result.
-/
import proofs.«406006_j89026082111551_3_alg».proof.Proof.HostKeeps
import proofs.«406006_j89026082111551_3_alg».proof.Proof.Spec
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

/-! ## What the regions leave, as hypotheses -/

/-- Region 0 leaves `relu (x · w + b)` of the arrays it finds. -/
def Reg0Fact : Prop := ∀ (V : (c : Dev nD) → (b : Ref sig .tc) → Buf (Elt Ideal) ((c : Thread nD τ).loc b)) (c : Dev nD),
  (dat0 (F := Ideal) V c).arrAt 3 cfg0.N
    = Spec.linA (N := 50000) (K := 64) (M := 128) (V c main_arg0) (V c main_arg4) (Spec.row1 (V c main_v0))
/-- Region 1 likewise. -/
def Reg1Fact : Prop := ∀ (V : (c : Dev nD) → (b : Ref sig .tc) → Buf (Elt Ideal) ((c : Thread nD τ).loc b)) (c : Dev nD),
  (dat1 (F := Ideal) V c).arrAt 3 cfg1.N
    = Spec.linA (N := 50000) (K := 32) (M := 128) (V c main_arg1) (V c main_arg6) (Spec.row1 (V c main_v2))
/-- Region 2 leaves the update of the arrays it finds. -/
def Reg2Fact : Prop := ∀ (V : (c : Dev nD) → (b : Ref sig .tc) → Buf (Elt Ideal) ((c : Thread nD τ).loc b)) (c : Dev nD),
  (dat2 (F := Ideal) V c).arrAt 5 cfg2.N
    = Spec.sageA (N := 50000) (V c main_v43) (V c main_v3) (V c main_arg8) (Spec.row1 (V c main_v44)) (V c main_arg10)
/-- Region 3 likewise. -/
def Reg3Fact : Prop := ∀ (V : (c : Dev nD) → (b : Ref sig .tc) → Buf (Elt Ideal) ((c : Thread nD τ).loc b)) (c : Dev nD),
  (dat3 (F := Ideal) V c).arrAt 5 cfg3.N
    = Spec.sageA (N := 50000) (V c main_v59) (V c main_v1) (V c main_arg11) (Spec.row1 (V c main_v60)) (V c main_arg13)
/-- Region 4 leaves the head of the update of the arrays it finds. -/
def Reg4Fact : Prop := ∀ (V : (c : Dev nD) → (b : Ref sig .tc) → Buf (Elt Ideal) ((c : Thread nD τ).loc b)) (c : Dev nD),
  (dat4 (F := Ideal) V c).arrAt 9 cfg4.N
    = Spec.headA (N := 50000)
        (Spec.sageA (N := 50000) (V c main_v75) (V c main_v61) (V c main_arg17) (Spec.row1 (V c main_v76)) (V c main_arg19))
        (V c main_arg20) (Spec.row1 (V c main_v77)) (V c main_arg22) (Spec.row1 (V c main_v78))

variable (m : (ℓ : Loc nD τ sig) → Buf (Elt Ideal) ℓ) (ρ : Dev nD → PrngReg) (c : Dev nD)

/-- An argument's launch contents. -/
abbrev arg (b : Ref sig .tc) : Buf (Elt Ideal) ((c.tc : Thread nD τ).loc b) := m ((c.tc : Thread nD τ).loc b)

/-- A vector reshaped to one row, read as a row, is the vector. -/
theorem row1_reshape {a : ℕ} (b : (⟨1, ![a]⟩ : Shape).Idx → EReal) (h : (⟨1, ![a]⟩ : Shape).ShapeCasts ⟨2, ![1, a]⟩) :
    Spec.row1 (shapeCast ⟨2, ![1, a]⟩ b h) = Spec.vec b :=
  funext fun q => shapeCast_a_1a_apply b h 0 q

/-! ## The encoders -/

theorem v0_1 : W1 m ρ c (Proc.devRef .tc main_v0) = shapeCast S1x128 (arg m c main_arg5) shapeCasts_S128_S1x128 := by
  show StableHlo.after hostOps0 (W0 m ρ c) (Proc.devRef .tc main_v0) = _
  after_results
  rfl

theorem hu0_2 (h0 : Reg0Fact) : W2 m ρ c (Proc.devRef .tc main_v1) = (Spec.hu0 (arg m c main_arg0) (arg m c main_arg4) (arg m c main_arg5)) := by
  refine (W2_arr m ρ c 3).trans ((h0 (V1 m ρ) c).trans ?_)
  show Spec.linA (W1 m ρ c (Proc.devRef .tc main_arg0)) (W1 m ρ c (Proc.devRef .tc main_arg4)) (Spec.row1 (W1 m ρ c (Proc.devRef .tc main_v0))) = _
  rw [a1 m ρ c main_arg0 (by decide), a1 m ρ c main_arg4 (by decide), v0_1, row1_reshape]
  rfl

theorem v2_3 : W3 m ρ c (Proc.devRef .tc main_v2) = shapeCast S1x128 (arg m c main_arg7) shapeCasts_S128_S1x128 := by
  show StableHlo.after hostOps1 (W2 m ρ c) (Proc.devRef .tc main_v2) = _
  after_results
  exact congrArg (shapeCast S1x128 · shapeCasts_S128_S1x128) (a2 m ρ c main_arg7 (by decide))

theorem hi0_4 (h1 : Reg1Fact) : W4 m ρ c (Proc.devRef .tc main_v3) = (Spec.hi0 (arg m c main_arg1) (arg m c main_arg6) (arg m c main_arg7)) := by
  refine (W4_arr m ρ c 3).trans ((h1 (V3 m ρ) c).trans ?_)
  show Spec.linA (W3 m ρ c (Proc.devRef .tc main_arg1)) (W3 m ρ c (Proc.devRef .tc main_arg6)) (Spec.row1 (W3 m ρ c (Proc.devRef .tc main_v2))) = _
  rw [a3 m ρ c main_arg1 (by decide), a3 m ρ c main_arg6 (by decide), v2_3, row1_reshape]
  rfl

theorem hu0_4 (h0 : Reg0Fact) : W4 m ρ c (Proc.devRef .tc main_v1) = (Spec.hu0 (arg m c main_arg0) (arg m c main_arg4) (arg m c main_arg5)) :=
  (keepR1 m ρ c main_v1 (by decide)).trans ((keepH1 m ρ c main_v1 (by decide)).trans (hu0_2 m ρ c h0))

/-! ## The host operations before the first layer's item update -/

theorem agg_5 : W5 m ρ c (Proc.devRef .tc main_v43) = Spec.meanMulA (W4 m ρ c (Proc.devRef .tc main_arg2)) (W4 m ρ c (Proc.devRef .tc main_v1)) := by
  show StableHlo.after hostOps2 (W4 m ρ c) (Proc.devRef .tc main_v43) = _
  after_results_simp
  unfold Spec.meanMulA Spec.segSum Spec.dstIdx Spec.srcSel Spec.cnt Spec.cols
  rfl

theorem aggI_5 (h0 : Reg0Fact) : W5 m ρ c (Proc.devRef .tc main_v43) = Spec.meanA (arg m c main_arg2) (Spec.hu0 (arg m c main_arg0) (arg m c main_arg4) (arg m c main_arg5)) := by
  rw [agg_5, a4 m ρ c main_arg2 (by decide), hu0_4 m ρ c h0]
  exact Spec.meanMulA_eq _ _

theorem v44_5 : W5 m ρ c (Proc.devRef .tc main_v44) = shapeCast S1x128 (arg m c main_arg9) shapeCasts_S128_S1x128 := by
  show StableHlo.after hostOps2 (W4 m ρ c) (Proc.devRef .tc main_v44) = _
  after_results_simp
  exact congrArg (shapeCast S1x128 · shapeCasts_S128_S1x128) (a4 m ρ c main_arg9 (by decide))

/-- The item-to-user edges' sources, as the host computes them once. -/
theorem v9_5 : W5 m ρ c (Proc.devRef .tc main_v9) = (shapeCast S800000 (extractStridedSlice S1x800000 ![0, 0] (arg m c main_arg3) slices_S2x800000_S1x800000_0_0) shapeCasts_S1x800000_S800000) := by
  show StableHlo.after hostOps2 (W4 m ρ c) (Proc.devRef .tc main_v9) = _
  after_results_simp
  exact congrArg (fun e => (shapeCast S800000 (extractStridedSlice S1x800000 ![0, 0] e slices_S2x800000_S1x800000_0_0) shapeCasts_S1x800000_S800000)) (a4 m ρ c main_arg3 (by decide))

/-- The item-to-user edges' destinations. -/
theorem v11_5 : W5 m ρ c (Proc.devRef .tc main_v11) = (shapeCast S800000 (extractStridedSlice S1x800000 ![1, 0] (arg m c main_arg3) slices_S2x800000_S1x800000_1_0) shapeCasts_S1x800000_S800000) := by
  show StableHlo.after hostOps2 (W4 m ρ c) (Proc.devRef .tc main_v11) = _
  after_results_simp
  exact congrArg (fun e => (shapeCast S800000 (extractStridedSlice S1x800000 ![1, 0] e slices_S2x800000_S1x800000_1_0) shapeCasts_S1x800000_S800000)) (a4 m ρ c main_arg3 (by decide))

set_option maxHeartbeats 2000000 in
/-- The reciprocals of the users' clamped in-degrees, as a column. -/
theorem v29_5 : W5 m ρ c (Proc.devRef .tc main_v29) = (broadcastInDim S50000x1 ![0] bcast_S50000_S50000x1_0
      (Host.divf (F := Ideal) (broadcastInDim S50000 ![] bcast_S_S50000 (constant (F := Ideal) S_ .f32 0x3F800000#32))
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (shapeCast S800000 (extractStridedSlice S1x800000 ![1, 0] (arg m c main_arg3) slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32))))) := by
  show StableHlo.after hostOps2 (W4 m ρ c) (Proc.devRef .tc main_v29) = _
  after_results_simp
  rw [a4 m ρ c main_arg3 (by decide)]
  rfl

theorem hi0_5 (h1 : Reg1Fact) : W5 m ρ c (Proc.devRef .tc main_v3) = (Spec.hi0 (arg m c main_arg1) (arg m c main_arg6) (arg m c main_arg7)) :=
  (keepH2 m ρ c main_v3 (by decide)).trans (hi0_4 m ρ c h1)

/-! ## The first layer -/

theorem hi1_6 (h0 : Reg0Fact) (h1 : Reg1Fact) (h2 : Reg2Fact) : W6 m ρ c (Proc.devRef .tc main_v45) = (Spec.hi1 (arg m c main_arg0) (arg m c main_arg1) (arg m c main_arg2) (arg m c main_arg4) (arg m c main_arg5) (arg m c main_arg6) (arg m c main_arg7) (arg m c main_arg8) (arg m c main_arg9) (arg m c main_arg10)) := by
  refine (W6_arr m ρ c 5).trans ((h2 (V5 m ρ) c).trans ?_)
  show Spec.sageA (W5 m ρ c (Proc.devRef .tc main_v43)) (W5 m ρ c (Proc.devRef .tc main_v3)) (W5 m ρ c (Proc.devRef .tc main_arg8)) (Spec.row1 (W5 m ρ c (Proc.devRef .tc main_v44)))
    (W5 m ρ c (Proc.devRef .tc main_arg10)) = _
  rw [aggI_5 m ρ c h0, hi0_5 m ρ c h1, a5 m ρ c main_arg8 (by decide), v44_5, row1_reshape, a5 m ρ c main_arg10 (by decide)]
  rfl

theorem hi0_6 (h1 : Reg1Fact) : W6 m ρ c (Proc.devRef .tc main_v3) = (Spec.hi0 (arg m c main_arg1) (arg m c main_arg6) (arg m c main_arg7)) :=
  (keepR2 m ρ c main_v3 (by decide)).trans (hi0_5 m ρ c h1)
theorem hu0_6 (h0 : Reg0Fact) : W6 m ρ c (Proc.devRef .tc main_v1) = (Spec.hu0 (arg m c main_arg0) (arg m c main_arg4) (arg m c main_arg5)) :=
  (keepR2 m ρ c main_v1 (by decide)).trans ((keepH2 m ρ c main_v1 (by decide)).trans (hu0_4 m ρ c h0))
theorem v9_6 : W6 m ρ c (Proc.devRef .tc main_v9) = (shapeCast S800000 (extractStridedSlice S1x800000 ![0, 0] (arg m c main_arg3) slices_S2x800000_S1x800000_0_0) shapeCasts_S1x800000_S800000) := (keepR2 m ρ c main_v9 (by decide)).trans (v9_5 m ρ c)
theorem v11_6 : W6 m ρ c (Proc.devRef .tc main_v11) = (shapeCast S800000 (extractStridedSlice S1x800000 ![1, 0] (arg m c main_arg3) slices_S2x800000_S1x800000_1_0) shapeCasts_S1x800000_S800000) := (keepR2 m ρ c main_v11 (by decide)).trans (v11_5 m ρ c)
theorem v29_6 : W6 m ρ c (Proc.devRef .tc main_v29) = (broadcastInDim S50000x1 ![0] bcast_S50000_S50000x1_0
      (Host.divf (F := Ideal) (broadcastInDim S50000 ![] bcast_S_S50000 (constant (F := Ideal) S_ .f32 0x3F800000#32))
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (shapeCast S800000 (extractStridedSlice S1x800000 ![1, 0] (arg m c main_arg3) slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32))))) := (keepR2 m ρ c main_v29 (by decide)).trans (v29_5 m ρ c)

theorem aggU_7 (h1 : Reg1Fact) : W7 m ρ c (Proc.devRef .tc main_v59) = Spec.meanA (arg m c main_arg3) (Spec.hi0 (arg m c main_arg1) (arg m c main_arg6) (arg m c main_arg7)) := by
  show StableHlo.after hostOps3 (W6 m ρ c) (Proc.devRef .tc main_v59) = _
  after_results_simp
  rw [hi0_6 m ρ c h1, v9_6, v11_6, v29_6]
  refine Eq.trans ?_ (Spec.meanMulA_eq _ _)
  unfold Spec.meanMulA Spec.segSum Spec.dstIdx Spec.srcSel Spec.cnt Spec.cols
  rfl

theorem v60_7 : W7 m ρ c (Proc.devRef .tc main_v60) = shapeCast S1x128 (arg m c main_arg12) shapeCasts_S128_S1x128 := by
  show StableHlo.after hostOps3 (W6 m ρ c) (Proc.devRef .tc main_v60) = _
  after_results_simp
  exact congrArg (shapeCast S1x128 · shapeCasts_S128_S1x128) (a6 m ρ c main_arg12 (by decide))

theorem hu1_8 (h0 : Reg0Fact) (h1 : Reg1Fact) (h3 : Reg3Fact) : W8 m ρ c (Proc.devRef .tc main_v61) = (Spec.hu1 (arg m c main_arg0) (arg m c main_arg1) (arg m c main_arg3) (arg m c main_arg4) (arg m c main_arg5) (arg m c main_arg6) (arg m c main_arg7) (arg m c main_arg11) (arg m c main_arg12) (arg m c main_arg13)) := by
  refine (W8_arr m ρ c 5).trans ((h3 (V7 m ρ) c).trans ?_)
  show Spec.sageA (W7 m ρ c (Proc.devRef .tc main_v59)) (W7 m ρ c (Proc.devRef .tc main_v1)) (W7 m ρ c (Proc.devRef .tc main_arg11)) (Spec.row1 (W7 m ρ c (Proc.devRef .tc main_v60)))
    (W7 m ρ c (Proc.devRef .tc main_arg13)) = _
  rw [aggU_7 m ρ c h1, (keepH3 m ρ c main_v1 (by decide)).trans (hu0_6 m ρ c h0), a7 m ρ c main_arg11 (by decide), v60_7,
    row1_reshape, a7 m ρ c main_arg13 (by decide)]
  rfl

/-! ## The second layer and the head -/

theorem hi1_8 (h0 : Reg0Fact) (h1 : Reg1Fact) (h2 : Reg2Fact) : W8 m ρ c (Proc.devRef .tc main_v45) = (Spec.hi1 (arg m c main_arg0) (arg m c main_arg1) (arg m c main_arg2) (arg m c main_arg4) (arg m c main_arg5) (arg m c main_arg6) (arg m c main_arg7) (arg m c main_arg8) (arg m c main_arg9) (arg m c main_arg10)) :=
  (keepR3 m ρ c main_v45 (by decide)).trans ((keepH3 m ρ c main_v45 (by decide)).trans (hi1_6 m ρ c h0 h1 h2))
theorem v9_8 : W8 m ρ c (Proc.devRef .tc main_v9) = (shapeCast S800000 (extractStridedSlice S1x800000 ![0, 0] (arg m c main_arg3) slices_S2x800000_S1x800000_0_0) shapeCasts_S1x800000_S800000) :=
  (keepR3 m ρ c main_v9 (by decide)).trans ((keepH3 m ρ c main_v9 (by decide)).trans (v9_6 m ρ c))
theorem v11_8 : W8 m ρ c (Proc.devRef .tc main_v11) = (shapeCast S800000 (extractStridedSlice S1x800000 ![1, 0] (arg m c main_arg3) slices_S2x800000_S1x800000_1_0) shapeCasts_S1x800000_S800000) :=
  (keepR3 m ρ c main_v11 (by decide)).trans ((keepH3 m ρ c main_v11 (by decide)).trans (v11_6 m ρ c))
theorem v29_8 : W8 m ρ c (Proc.devRef .tc main_v29) = (broadcastInDim S50000x1 ![0] bcast_S50000_S50000x1_0
      (Host.divf (F := Ideal) (broadcastInDim S50000 ![] bcast_S_S50000 (constant (F := Ideal) S_ .f32 0x3F800000#32))
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (shapeCast S800000 (extractStridedSlice S1x800000 ![1, 0] (arg m c main_arg3) slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32))))) :=
  (keepR3 m ρ c main_v29 (by decide)).trans ((keepH3 m ρ c main_v29 (by decide)).trans (v29_6 m ρ c))

theorem aggU_9 (h0 : Reg0Fact) (h1 : Reg1Fact) (h2 : Reg2Fact) : W9 m ρ c (Proc.devRef .tc main_v75) = Spec.meanA (arg m c main_arg3) (Spec.hi1 (arg m c main_arg0) (arg m c main_arg1) (arg m c main_arg2) (arg m c main_arg4) (arg m c main_arg5) (arg m c main_arg6) (arg m c main_arg7) (arg m c main_arg8) (arg m c main_arg9) (arg m c main_arg10)) := by
  show StableHlo.after hostOps4 (W8 m ρ c) (Proc.devRef .tc main_v75) = _
  after_results_simp
  rw [hi1_8 m ρ c h0 h1 h2, v9_8, v11_8, v29_8]
  refine Eq.trans ?_ (Spec.meanMulA_eq _ _)
  unfold Spec.meanMulA Spec.segSum Spec.dstIdx Spec.srcSel Spec.cnt Spec.cols
  rfl

theorem v76_9 : W9 m ρ c (Proc.devRef .tc main_v76) = shapeCast S1x128 (arg m c main_arg18) shapeCasts_S128_S1x128 := by
  show StableHlo.after hostOps4 (W8 m ρ c) (Proc.devRef .tc main_v76) = _
  after_results_simp
  exact congrArg (shapeCast S1x128 · shapeCasts_S128_S1x128) (a8 m ρ c main_arg18 (by decide))
theorem v77_9 : W9 m ρ c (Proc.devRef .tc main_v77) = shapeCast S1x64 (arg m c main_arg21) shapeCasts_S64_S1x64 := by
  show StableHlo.after hostOps4 (W8 m ρ c) (Proc.devRef .tc main_v77) = _
  after_results_simp
  exact congrArg (shapeCast S1x64 · shapeCasts_S64_S1x64) (a8 m ρ c main_arg21 (by decide))
theorem v78_9 : W9 m ρ c (Proc.devRef .tc main_v78) = shapeCast S1x8 (arg m c main_arg23) shapeCasts_S8_S1x8 := by
  show StableHlo.after hostOps4 (W8 m ρ c) (Proc.devRef .tc main_v78) = _
  after_results_simp
  exact congrArg (shapeCast S1x8 · shapeCasts_S8_S1x8) (a8 m ρ c main_arg23 (by decide))

/-- THE RESULT: what the last region leaves in the result buffer is the specification's result of the arguments. -/
theorem result_10 (h0 : Reg0Fact) (h1 : Reg1Fact) (h2 : Reg2Fact) (h3 : Reg3Fact) (h4 : Reg4Fact) :
    W10 m ρ c (Proc.devRef .tc main_v79) = Spec.result (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg17) (arg m c main_arg18) (arg m c main_arg19) (arg m c main_arg20) (arg m c main_arg21) (arg m c main_arg22) (arg m c main_arg23) := by
  refine (W10_arr m ρ c 9).trans ((h4 (V9 m ρ) c).trans ?_)
  show Spec.headA (Spec.sageA (W9 m ρ c (Proc.devRef .tc main_v75)) (W9 m ρ c (Proc.devRef .tc main_v61)) (W9 m ρ c (Proc.devRef .tc main_arg17))
      (Spec.row1 (W9 m ρ c (Proc.devRef .tc main_v76))) (W9 m ρ c (Proc.devRef .tc main_arg19)))
    (W9 m ρ c (Proc.devRef .tc main_arg20)) (Spec.row1 (W9 m ρ c (Proc.devRef .tc main_v77))) (W9 m ρ c (Proc.devRef .tc main_arg22)) (Spec.row1 (W9 m ρ c (Proc.devRef .tc main_v78))) = _
  rw [aggU_9 m ρ c h0 h1 h2, (keepH4 m ρ c main_v61 (by decide)).trans (hu1_8 m ρ c h0 h1 h3),
    a9 m ρ c main_arg17 (by decide), v76_9, row1_reshape, a9 m ρ c main_arg19 (by decide), a9 m ρ c main_arg20 (by decide),
    v77_9, row1_reshape, a9 m ρ c main_arg22 (by decide), v78_9, row1_reshape]
  rfl

end Cert.KernelIdeal.Host

end
-- ==== Proof.RefStages.lean ====
/-
  The reference program, stage by stage. Its @main is a straight line of host operations; read one operation at a
  time, the encoders, the three updates and the head are the row formulas of the specification at every row of the
  50000-row tables, and each mean aggregation is literally the composition of host operations the specification names.
  The three updates apply the same eleven operations to different tables, so the update is read once, over arbitrary
  tables: a product with a 128×128 matrix is the sum over the contracted coordinate, the copied bias reads its entry at
  the column, the row sum of the squares is the sum over the row, and the clamped root copied along the columns reads
  the row's own value; entry by entry that is the specification's row formula.
-/
import proofs.«406006_j89026082111551_3_alg».proof.Proof.Gen.ReferenceIdeal.Run
import proofs.«406006_j89026082111551_3_alg».proof.Proof.Gen.ReferenceIdeal.Read
import proofs.«406006_j89026082111551_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.TcCoe Idealize.ShloMosaic.ValueIdx
open Idealize.SL.Sem

section Update

open Cert.ReferenceIdeal.Gen

/-! ## The update over arbitrary tables -/

/-- The left operand's row coordinate in the product is the output's. -/
theorem dot128_lhs0 (i : S50000x128.Idx) (r : dot_S50000x128_S128x128_S50000x128_1_0_0_1_n_n.contr.Idx) :
    (dot_S50000x128_S128x128_S50000x128_1_0_0_1_n_n.lhsIdx i r 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

/-- The right operand's column coordinate in the product is the output's. -/
theorem dot128_rhs1 (i : S50000x128.Idx) (r : dot_S50000x128_S128x128_S50000x128_1_0_0_1_n_n.contr.Idx) :
    (dot_S50000x128_S128x128_S50000x128_1_0_0_1_n_n.rhsIdx i r 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000×128 table by a 128×128 matrix at an entry: the sum over the contracted coordinate. -/
theorem dot128_apply (A : FVec Ideal S50000x128 .f32) (W : FVec Ideal S128x128 .f32) (p : Fin 50000) (q : Fin 128) :
    Host.dotGeneral dot_S50000x128_S128x128_S50000x128_1_0_0_1_n_n none A W (ix2 p q)
      = ∑ k : Fin 128, A (ix2 p k) * W (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact dot128_lhs0 _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (dot_S50000x128_S128x128_S50000x128_1_0_0_1_n_n.rhsIdx_val_of_single rfl _ _).trans hk
      | ⟨1, _⟩ => exact dot128_rhs1 _ _)
  rw [el, er]

/-- A bias vector copied along the rows reads, at `(p, q)`, its entry `q`. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b _ (ix1 q) (fun a => match a with
    | ⟨0, _⟩ => by show q.val = if (128 : Nat) = 1 then 0 else q.val; rw [if_neg (by decide)])

/-- The sum of a table along its rows, from zero: at `p` the sum of row `p`. -/
theorem rowsum_apply (Y : FVec Ideal S50000x128 .f32) (p : Fin 50000) :
    Host.reduceAdd Y (constant (F := Ideal) S_ .f32 0x00000000#32) reducesTo_S50000x128_S50000_d1 h_S_ (ix1 p)
      = ∑ k : Fin 128, Y (ix2 p k) := by
  simp only [Host.reduceAdd, Ideal.hostReduceAdd_def]
  rw [Ideal.hostReduceAdd_single reducesTo_S50000x128_S50000_d1 (by decide), constant_apply, Ideal.ofBits_zero_f32, zero_add]
  refine Finset.sum_congr rfl fun k _ => ?_
  exact congrArg Y (funext fun a => Fin.ext (by match a with | ⟨0, _⟩ => rfl | ⟨1, _⟩ => rfl))

/-- The clamped root of a column of row sums, copied along the columns: at `(p, q)` it is `max (√ v[p], ε)`. -/
theorem clampRoot_apply (v : FVec Ideal S50000 .f32) (p : Fin 50000) (q : Fin 128) :
    broadcastInDim S50000x128 ![0, 1] bcast_S50000x1_S50000x128_0_1
        (maximumf (F := Ideal) (Host.sqrt (F := Ideal) (broadcastInDim S50000x1 ![0] bcast_S50000_S50000x1_0 v))
          (broadcastInDim S50000x1 ![] bcast_S_S50000x1 (constant (F := Ideal) S_ .f32 0x2B8CBCCC#32))) (ix2 p q)
      = max (Ideal.sqrt (v (ix1 p))) Spec.eps := by
  rw [broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])]
  rw [maximumf_apply]
  refine congrArg₂ max ?_ ?_
  · show Ideal.sqrt (broadcastInDim S50000x1 ![0] bcast_S50000_S50000x1_0 v (ix2 p (0 : Fin 1))) = _
    rw [broadcastInDim_apply _ bcast_S50000_S50000x1_0 v _ (ix1 p) (fun a => match a with
      | ⟨0, _⟩ => by show p.val = if (50000 : Nat) = 1 then 0 else p.val; rw [if_neg (by decide)])]
  · exact broadcastInDim_apply _ bcast_S_S50000x1 _ _ ix0 (fun a => a.elim0)

/-- The zero table reads zero everywhere. -/
theorem zeros128_apply (i : S50000x128.Idx) :
    broadcastInDim S50000x128 ![] bcast_S_S50000x128 (constant (F := Ideal) S_ .f32 0x00000000#32) i = 0 :=
  (broadcastInDim_apply _ bcast_S_S50000x128 (constant (F := Ideal) S_ .f32 0x00000000#32) i ix0 (fun a => a.elim0)).trans
    Ideal.ofBits_zero_f32

/-- `a · wl + bl + x · wr` as the host operations the reference applies. -/
def outHost (A X : FVec Ideal S50000x128 .f32) (WL WR : FVec Ideal S128x128 .f32) (bl : FVec Ideal S128 .f32) :
    FVec Ideal S50000x128 .f32 :=
  addf (addf (Host.dotGeneral dot_S50000x128_S128x128_S50000x128_1_0_0_1_n_n none A WL)
      (broadcastInDim S50000x128 ![0, 1] bcast_S1x128_S50000x128_0_1 (broadcastInDim S1x128 ![1] bcast_S128_S1x128_1 bl)))
    (Host.dotGeneral dot_S50000x128_S128x128_S50000x128_1_0_0_1_n_n none X WR)

/-- Row `p` of it is the specification's row formula. -/
theorem outHost_apply (A X : FVec Ideal S50000x128 .f32) (WL WR : FVec Ideal S128x128 .f32) (bl : FVec Ideal S128 .f32)
    (p : Fin 50000) (q : Fin 128) :
    outHost A X WL WR bl (ix2 p q)
      = Spec.sageOut (Spec.mat A p) (Spec.mat X p) (Spec.mat WL) (Spec.mat WR) (Spec.vec bl) q := by
  unfold outHost Spec.sageOut
  rw [addf_apply, addf_apply, dot128_apply, dot128_apply, bias128_apply]

/-- The update as the host operations the reference applies: the row divided by its clamped norm, rectified, plus the
    node's own row. -/
def updHost (A X : FVec Ideal S50000x128 .f32) (WL WR : FVec Ideal S128x128 .f32) (bl : FVec Ideal S128 .f32) :
    FVec Ideal S50000x128 .f32 :=
  addf
    (maximumf
      (Host.divf (outHost A X WL WR bl)
        (broadcastInDim S50000x128 ![0, 1] bcast_S50000x1_S50000x128_0_1
          (maximumf (F := Ideal)
            (Host.sqrt (F := Ideal) (broadcastInDim S50000x1 ![0] bcast_S50000_S50000x1_0
              (Host.reduceAdd (mulf (outHost A X WL WR bl) (outHost A X WL WR bl))
                (constant (F := Ideal) S_ .f32 0x00000000#32) reducesTo_S50000x128_S50000_d1 h_S_)))
            (broadcastInDim S50000x1 ![] bcast_S_S50000x1 (constant (F := Ideal) S_ .f32 0x2B8CBCCC#32)))))
      (broadcastInDim S50000x128 ![] bcast_S_S50000x128 (constant (F := Ideal) S_ .f32 0x00000000#32)))
    X

/-- The host update is the specification's update, for every pair of tables. -/
theorem updHost_eq (A X : FVec Ideal S50000x128 .f32) (WL WR : FVec Ideal S128x128 .f32) (bl : FVec Ideal S128 .f32) :
    updHost A X WL WR bl = Spec.sageA A X WL (Spec.vec bl) WR := by
  funext i
  obtain ⟨p, q, rfl⟩ : ∃ (p : Fin 50000) (q : Fin 128), i = ix2 p q := ⟨i 0, i 1, eq_ix2 i⟩
  unfold updHost
  rw [addf_apply, maximumf_apply, zeros128_apply, Spec.hostDivf_apply, clampRoot_apply, rowsum_apply, outHost_apply]
  simp only [mulf_apply, outHost_apply]
  rfl

end Update

/-! ## The stages of the reference -/

variable (x0 : (⟨S50000x64, .f32⟩ : BufTy).Contents (Elt Ideal)) (x1 : (⟨S50000x32, .f32⟩ : BufTy).Contents (Elt Ideal))
  (x2 x3 : (⟨S2x800000, .i32⟩ : BufTy).Contents (Elt Ideal))
  (x4 : (⟨S64x128, .f32⟩ : BufTy).Contents (Elt Ideal)) (x5 : (⟨S128, .f32⟩ : BufTy).Contents (Elt Ideal))
  (x6 : (⟨S32x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal))
  (x11 : (⟨S128x128, .f32⟩ : BufTy).Contents (Elt Ideal)) (x12 : (⟨S128, .f32⟩ : BufTy).Contents (Elt Ideal)) (x13 : (⟨S128x128, .f32⟩ : BufTy).Contents (Elt Ideal))
  (x17 : (⟨S128x128, .f32⟩ : BufTy).Contents (Elt Ideal)) (x18 : (⟨S128, .f32⟩ : BufTy).Contents (Elt Ideal)) (x19 : (⟨S128x128, .f32⟩ : BufTy).Contents (Elt Ideal))
  (x20 : (⟨S128x64, .f32⟩ : BufTy).Contents (Elt Ideal)) (x21 : (⟨S64, .f32⟩ : BufTy).Contents (Elt Ideal)) (x22 : (⟨S64x8, .f32⟩ : BufTy).Contents (Elt Ideal)) (x23 : (⟨S8, .f32⟩ : BufTy).Contents (Elt Ideal))

/-- The encoded users. -/
theorem hu0_eq : val_main_v4 (F := Ideal) x0 x4 x5 = Spec.hu0 x0 x4 x5 := by
  funext i
  obtain ⟨p, q, rfl⟩ : ∃ (p : Fin 50000) (q : Fin 128), i = ix2 p q := ⟨i 0, i 1, eq_ix2 i⟩
  rw [val_main_v4_apply, val_main_v3_apply, val_main_v0_apply, val_main_v2_apply, val_main_v1_apply,
    val_main_call0_v0_apply, val_main_call0_cst_apply]
  have el : ∀ k : Fin 64, lidx_main_v0 (ix2 p q) k = ix2 p k := fun k =>
    funext fun a => Fin.ext (by match a with | ⟨0, _⟩ => rfl | ⟨1, _⟩ => rfl)
  have er : ∀ k : Fin 64, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  rw [Finset.sum_congr rfl fun k _ => by rw [el k, er k], eb]
  show max (_ + _) (Ideal.ofBits .f32 0x00000000#32) = _
  rw [Ideal.ofBits_zero_f32]
  rfl

/-- The encoded items. -/
theorem hi0_eq : val_main_v9 (F := Ideal) x1 x6 x7 = Spec.hi0 x1 x6 x7 := by
  funext i
  obtain ⟨p, q, rfl⟩ : ∃ (p : Fin 50000) (q : Fin 128), i = ix2 p q := ⟨i 0, i 1, eq_ix2 i⟩
  rw [val_main_v9_apply, val_main_v8_apply, val_main_v5_apply, val_main_v7_apply, val_main_v6_apply,
    val_main_call1_v0_apply, val_main_call1_cst_apply]
  have el : ∀ k : Fin 32, lidx_main_v5 (ix2 p q) k = ix2 p k := fun k =>
    funext fun a => Fin.ext (by match a with | ⟨0, _⟩ => rfl | ⟨1, _⟩ => rfl)
  have er : ∀ k : Fin 32, ridx_main_v5 (ix2 p q) k = ix2 k q := fun k =>
    funext fun a => Fin.ext (by match a with | ⟨0, _⟩ => rfl | ⟨1, _⟩ => rfl)
  have eb : idx_main_v6 (idx_main_v7 (ix2 p q)) = ix1 q :=
    funext fun a => Fin.ext (by match a with | ⟨0, _⟩ => rfl)
  rw [Finset.sum_congr rfl fun k _ => by rw [el k, er k], eb]
  show max (_ + _) (Ideal.ofBits .f32 0x00000000#32) = _
  rw [Ideal.ofBits_zero_f32]
  rfl

/-- The mean of the encoded users along the user-to-item edges: the same host operations. -/
theorem mean_ui0 : val_main_v32 (F := Ideal) x0 x2 x4 x5 = Spec.meanA x2 (val_main_v4 (F := Ideal) x0 x4 x5) := by
  unfold val_main_v32 val_main_v23 val_main_v21 val_main_cst val_main_v22 val_main_v20 val_main_v19 val_main_v18 val_main_v17 val_main_v16 val_main_v13 val_main_v11 val_main_v10 val_main_v12 val_main_c val_main_v15 val_main_v14 val_main_c_0 val_main_v31 val_main_v30 val_main_v29 val_main_v27 val_main_v25 val_main_cst_2 val_main_v26 val_main_v24 val_main_cst_1 val_main_v28 val_main_cst_3
    Spec.meanA Spec.segSum Spec.cnt Spec.cols Spec.srcSel Spec.dstIdx
  rfl

/-- The items after the first layer. -/
theorem hi1_eq : val_main_v81 (F := Ideal) x0 x1 x2 x4 x5 x6 x7 x8 x9 x10 = Spec.hi1 x0 x1 x2 x4 x5 x6 x7 x8 x9 x10 := by
  have h : val_main_v81 (F := Ideal) x0 x1 x2 x4 x5 x6 x7 x8 x9 x10
      = updHost (val_main_v32 (F := Ideal) x0 x2 x4 x5) (val_main_v9 (F := Ideal) x1 x6 x7) x8 x10 x9 := by
    unfold val_main_v81 val_main_v44 val_main_v43 val_main_v38 val_main_v36 val_main_v33 val_main_v35 val_main_v34 val_main_v37 val_main_v42 val_main_v41 val_main_v39 val_main_call2_v2 val_main_call2_v1 val_main_call2_v0 val_main_call2_cst val_main_v40 val_main_cst_4 val_main_call3_v0 val_main_call3_cst
      updHost outHost
    rfl
  rw [h, updHost_eq, mean_ui0, hu0_eq, hi0_eq]
  rfl

/-- The mean of the encoded items along the item-to-user edges. -/
theorem mean_iu0 : val_main_v67 (F := Ideal) x1 x3 x6 x7 = Spec.meanA x3 (val_main_v9 (F := Ideal) x1 x6 x7) := by
  unfold val_main_v67 val_main_v58 val_main_v56 val_main_cst_7 val_main_v57 val_main_v55 val_main_v54 val_main_v53 val_main_v52 val_main_v51 val_main_v48 val_main_v46 val_main_v45 val_main_v47 val_main_c_5 val_main_v50 val_main_v49 val_main_c_6 val_main_v66 val_main_v65 val_main_v64 val_main_v62 val_main_v60 val_main_cst_9 val_main_v61 val_main_v59 val_main_cst_8 val_main_v63 val_main_cst_10
    Spec.meanA Spec.segSum Spec.cnt Spec.cols Spec.srcSel Spec.dstIdx
  rfl

/-- The users after the first layer. -/
theorem hu1_eq : val_main_v80 (F := Ideal) x0 x1 x3 x4 x5 x6 x7 x11 x12 x13 = Spec.hu1 x0 x1 x3 x4 x5 x6 x7 x11 x12 x13 := by
  have h : val_main_v80 (F := Ideal) x0 x1 x3 x4 x5 x6 x7 x11 x12 x13
      = updHost (val_main_v67 (F := Ideal) x1 x3 x6 x7) (val_main_v4 (F := Ideal) x0 x4 x5) x11 x13 x12 := by
    unfold val_main_v80 val_main_v79 val_main_v78 val_main_v73 val_main_v71 val_main_v68 val_main_v70 val_main_v69 val_main_v72 val_main_v77 val_main_v76 val_main_v74 val_main_call4_v2 val_main_call4_v1 val_main_call4_v0 val_main_call4_cst val_main_v75 val_main_cst_11 val_main_call5_v0 val_main_call5_cst
      updHost outHost
    rfl
  rw [h, updHost_eq, mean_iu0, hu0_eq, hi0_eq]
  rfl

/-- The mean of the first layer's items along the item-to-user edges. -/
theorem mean_iu1 : val_main_v139 (F := Ideal) x0 x1 x2 x3 x4 x5 x6 x7 x8 x9 x10
    = Spec.meanA x3 (val_main_v81 (F := Ideal) x0 x1 x2 x4 x5 x6 x7 x8 x9 x10) := by
  unfold val_main_v139 val_main_v130 val_main_v128 val_main_cst_21 val_main_v129 val_main_v127 val_main_v126 val_main_v125 val_main_v124 val_main_v123 val_main_v120 val_main_v118 val_main_v117 val_main_v119 val_main_c_19 val_main_v122 val_main_v121 val_main_c_20 val_main_v138 val_main_v137 val_main_v136 val_main_v134 val_main_v132 val_main_cst_23 val_main_v133 val_main_v131 val_main_cst_22 val_main_v135 val_main_cst_24
    Spec.meanA Spec.segSum Spec.cnt Spec.cols Spec.srcSel Spec.dstIdx
  rfl

/-- The users after the second layer. -/
theorem hu2_eq : val_main_v152 (F := Ideal) x0 x1 x2 x3 x4 x5 x6 x7 x8 x9 x10 x11 x12 x13 x17 x18 x19
    = Spec.hu2 x0 x1 x2 x3 x4 x5 x6 x7 x8 x9 x10 x11 x12 x13 x17 x18 x19 := by
  have h : val_main_v152 (F := Ideal) x0 x1 x2 x3 x4 x5 x6 x7 x8 x9 x10 x11 x12 x13 x17 x18 x19
      = updHost (val_main_v139 (F := Ideal) x0 x1 x2 x3 x4 x5 x6 x7 x8 x9 x10)
          (val_main_v80 (F := Ideal) x0 x1 x3 x4 x5 x6 x7 x11 x12 x13) x17 x19 x18 := by
    unfold val_main_v152 val_main_v151 val_main_v150 val_main_v145 val_main_v143 val_main_v140 val_main_v142 val_main_v141 val_main_v144 val_main_v149 val_main_v148 val_main_v146 val_main_call8_v2 val_main_call8_v1 val_main_call8_v0 val_main_call8_cst val_main_v147 val_main_cst_25 val_main_call9_v0 val_main_call9_cst
      updHost outHost
    rfl
  rw [h, updHost_eq, mean_iu1, hi1_eq, hu1_eq]
  rfl

/-- The reference's result is the specification's. -/
theorem result_eq : val_main_v162 (F := Ideal) x0 x1 x2 x3 x4 x5 x6 x7 x8 x9 x10 x11 x12 x13 x17 x18 x19 x20 x21 x22 x23
    = Spec.result x0 x1 x2 x3 x4 x5 x6 x7 x8 x9 x10 x11 x12 x13 x17 x18 x19 x20 x21 x22 x23 := by
  have hrow : ∀ (p : Fin 50000) (k : Fin 64), val_main_v158 (F := Ideal) x0 x1 x2 x3 x4 x5 x6 x7 x8 x9 x10 x11 x12 x13 x17 x18 x19 x20 x21 (ix2 p k)
      = Spec.linRow (Spec.mat (val_main_v152 (F := Ideal) x0 x1 x2 x3 x4 x5 x6 x7 x8 x9 x10 x11 x12 x13 x17 x18 x19) p) (Spec.mat x20) (Spec.vec x21) k := by
    intro p k
    rw [val_main_v158_apply, val_main_v157_apply, val_main_v154_apply, val_main_v156_apply, val_main_v155_apply,
      val_main_call10_v0_apply, val_main_call10_cst_apply]
    have el : ∀ n : Fin 128, lidx_main_v154 (ix2 p k) n = ix2 p n := fun n =>
      funext fun a => Fin.ext (by match a with | ⟨0, _⟩ => rfl | ⟨1, _⟩ => rfl)
    have er : ∀ n : Fin 128, ridx_main_v154 (ix2 p k) n = ix2 n k := fun n =>
      funext fun a => Fin.ext (by match a with | ⟨0, _⟩ => rfl | ⟨1, _⟩ => rfl)
    have eb : idx_main_v155 (idx_main_v156 (ix2 p k)) = ix1 k :=
      funext fun a => Fin.ext (by match a with | ⟨0, _⟩ => rfl)
    rw [Finset.sum_congr rfl fun n _ => by rw [el n, er n], eb]
    show max (_ + _) (Ideal.ofBits .f32 0x00000000#32) = _
    rw [Ideal.ofBits_zero_f32]
    rfl
  funext i
  obtain ⟨p, j, rfl⟩ : ∃ (p : Fin 50000) (j : Fin 8), i = ix2 p j := ⟨i 0, i 1, eq_ix2 i⟩
  rw [val_main_v162_apply, val_main_v159_apply, val_main_v161_apply, val_main_v160_apply]
  have el : ∀ k : Fin 64, lidx_main_v159 (ix2 p j) k = ix2 p k := fun k =>
    funext fun a => Fin.ext (by match a with | ⟨0, _⟩ => rfl | ⟨1, _⟩ => rfl)
  have er : ∀ k : Fin 64, ridx_main_v159 (ix2 p j) k = ix2 k j := fun k =>
    funext fun a => Fin.ext (by match a with | ⟨0, _⟩ => rfl | ⟨1, _⟩ => rfl)
  have eb : idx_main_v160 (idx_main_v161 (ix2 p j)) = ix1 j :=
    funext fun a => Fin.ext (by match a with | ⟨0, _⟩ => rfl)
  rw [Finset.sum_congr rfl fun k _ => by rw [el k, er k, hrow p k], eb, hu2_eq]
  rfl

/-- The run's result term is the specification's result of the launch contents of the arguments. -/
theorem res_eq (m : (ℓ : Loc nD τ sig) → Buf (Elt Ideal) ℓ) (c : Dev nD) :
    Cert.ReferenceIdeal.Value.res_main_v162 (F := Ideal) m c
      = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (val_main_v162_eq (F := Ideal) m c).trans (result_eq ..)

end Cert.ReferenceIdeal.Stages

end
-- ==== Proof.lean ====
/-
  The kernel program — two encoder regions, two first-layer update regions, and a last region fusing the second
  layer's user update with the two-layer head, with the edge aggregations between them done on the host — computes the
  same table as the reference's straight line of host operations, over the extended reals:

    * each region's table is a row-wise function of the tables it finds (one row of the result from the same row of
      its row-blocked inputs and the whole weights), and its blocks tile the table;
    * the host operations between the regions are the reference's own, except that the kernel multiplies the summed
      messages by 1 / max (count, 1) where the reference divides by max (count, 1): equal, since the clamped count is
      never zero; the change to bf16 and back around the gather is the identity over the extended reals;
    * the reference, read one operation at a time, is the same row-wise functions of the same tables.

  The frames of the two kernel programs are the generated ones; the reference's frame is its run with the result
  dropped; the idealization rewrote nothing.
-/
import proofs.«406006_j89026082111551_3_alg».proof.Defs
import proofs.«406006_j89026082111551_3_alg».proof.Proof.Gen.Kernel
import proofs.«406006_j89026082111551_3_alg».proof.Proof.Gen.Kernel.Skeleton
import proofs.«406006_j89026082111551_3_alg».proof.Proof.Gen.Kernel.Launch
import proofs.«406006_j89026082111551_3_alg».proof.Proof.Gen.Kernel.Points
import proofs.«406006_j89026082111551_3_alg».proof.Proof.Gen.Kernel.Frame
import proofs.«406006_j89026082111551_3_alg».proof.Proof.Gen.KernelIdeal
import proofs.«406006_j89026082111551_3_alg».proof.Proof.Gen.KernelIdeal.Skeleton
import proofs.«406006_j89026082111551_3_alg».proof.Proof.Gen.KernelIdeal.Launch
import proofs.«406006_j89026082111551_3_alg».proof.Proof.Gen.KernelIdeal.Points
import proofs.«406006_j89026082111551_3_alg».proof.Proof.Gen.KernelIdeal.Frame
import proofs.«406006_j89026082111551_3_alg».proof.Proof.Gen.ReferenceIdeal
import proofs.«406006_j89026082111551_3_alg».proof.Proof.Gen.ReferenceIdeal.Run
import proofs.«406006_j89026082111551_3_alg».proof.Proof.Gen.Pre_finite_inputs
import proofs.«406006_j89026082111551_3_alg».proof.Proof.KernelRun
import proofs.«406006_j89026082111551_3_alg».proof.Proof.RegLin0
import proofs.«406006_j89026082111551_3_alg».proof.Proof.RegLin1
import proofs.«406006_j89026082111551_3_alg».proof.Proof.RegSage2
import proofs.«406006_j89026082111551_3_alg».proof.Proof.RegSage3
import proofs.«406006_j89026082111551_3_alg».proof.Proof.RegHead4
import proofs.«406006_j89026082111551_3_alg».proof.Proof.KHost
import proofs.«406006_j89026082111551_3_alg».proof.Proof.RefStages
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Gen.frame m ρ

/-- The idealized kernel's frame. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of the (agreeing) arguments. -/
theorem algebraic : Cert.algebraic_KernelIdeal_ReferenceIdeal := by
  intro m ρ m' ρ' _ hagree
  refine ⟨fun c => Cert.KernelIdeal.Gen.W10 m ρ c (Proc.devRef .tc Cert.KernelIdeal.main_v79),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23⟩ := hagree c
  rw [Cert.ReferenceIdeal.Stages.res_eq m' c, e0, e1, e2, e3, e4, e5, e6, e7, e8, e9, e10, e11, e12, e13, e17, e18, e19, e20, e21, e22, e23]
  exact (Cert.KernelIdeal.Host.result_10 m ρ c Cert.KernelIdeal.Reg0.arr Cert.KernelIdeal.Reg1.arr
    Cert.KernelIdeal.Reg2.arr Cert.KernelIdeal.Reg3.arr Cert.KernelIdeal.Reg4.arr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
